-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S20000x64 : Shape := ⟨2, ![20000, 64]⟩
abbrev S1 : Shape := ⟨1, ![1]⟩
abbrev S1x1 : Shape := ⟨2, ![1, 1]⟩
abbrev S1700000x64 : Shape := ⟨2, ![1700000, 64]⟩
abbrev S10000x64 : Shape := ⟨2, ![10000, 64]⟩
abbrev S10000x1 : Shape := ⟨2, ![10000, 1]⟩
abbrev S1x64 : Shape := ⟨2, ![1, 64]⟩

abbrev nBuf : Space → Nat
  | .hbm => 109
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1, .i32⟩
  | .hbm, ⟨57, _⟩ => ⟨S_, .i32⟩
  | .hbm, ⟨58, _⟩ => ⟨S1700000x1, .i32⟩
  | .hbm, ⟨59, _⟩ => ⟨S1700000x1, .i1⟩
  | .hbm, ⟨60, _⟩ => ⟨S1x1, .i32⟩
  | .hbm, ⟨61, _⟩ => ⟨S1700000x1, .i32⟩
  | .hbm, ⟨62, _⟩ => ⟨S1700000x1, .i1⟩
  | .hbm, ⟨63, _⟩ => ⟨S1700000x1, .i1⟩
  | .hbm, ⟨64, _⟩ => ⟨S_, .i1⟩
  | .hbm, ⟨65, _⟩ => ⟨S1700000, .i1⟩
  | .hbm, ⟨66, _⟩ => ⟨S1700000x64, .f32⟩
  | .hbm, ⟨67, _⟩ => ⟨S1700000x64, .i1⟩
  | .hbm, ⟨68, _⟩ => ⟨S_, .f32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1, .i32⟩
  | .hbm, ⟨88, _⟩ => ⟨S_, .i32⟩
  | .hbm, ⟨89, _⟩ => ⟨S1700000x1, .i32⟩
  | .hbm, ⟨90, _⟩ => ⟨S1700000x1, .i1⟩
  | .hbm, ⟨91, _⟩ => ⟨S1x1, .i32⟩
  | .hbm, ⟨92, _⟩ => ⟨S1700000x1, .i32⟩
  | .hbm, ⟨93, _⟩ => ⟨S1700000x1, .i1⟩
  | .hbm, ⟨94, _⟩ => ⟨S1700000x1, .i1⟩
  | .hbm, ⟨95, _⟩ => ⟨S_, .i1⟩
  | .hbm, ⟨96, _⟩ => ⟨S1700000, .i1⟩
  | .hbm, ⟨97, _⟩ => ⟨S1700000x64, .f32⟩
  | .hbm, ⟨98, _⟩ => ⟨S1700000x64, .i1⟩
  | .hbm, ⟨99, _⟩ => ⟨S_, .f32⟩
  | .hbm, ⟨100, _⟩ => ⟨S1700000x64, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S20000x64, .f32⟩
  | .local _ .vmem, ⟨12, _⟩ => ⟨S20000x64, .f32⟩
  | .local _ .vmem, ⟨13, _⟩ => ⟨S1x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S64x64, .f32⟩
  | .local _ .vmem, ⟨19, _⟩ => ⟨S20000x64, .f32⟩
  | .local _ .vmem, ⟨20, _⟩ => ⟨S20000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S20000x64, .f32⟩
  | .local _ .vmem, ⟨28, _⟩ => ⟨S20000x64, .f32⟩
  | .local _ .vmem, ⟨29, _⟩ => ⟨S1x64, .f32⟩
  | .local _ .vmem, ⟨30, _⟩ => ⟨S20000x64, .f32⟩
  | .local _ .vmem, ⟨31, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v40 : Ref sig .tc := ⟨.hbm, 101, rfl⟩
abbrev main_v41 : Ref sig .tc := ⟨.hbm, 102, rfl⟩
abbrev main_cst_7 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x64_S64x64_S20000x64_1_0_0_1_n_n_wf : DotDims.WF S20000x64 S64x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S100000x64.size a
  hwx3_2 : ∀ i : grid3.Coords, EltTy.bits .f32 = 32 ∨ (Rect.block (s := S100000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1700000x64.size a
  hwx4_0 : ∀ i : grid4.Coords, EltTy.bits .f32 = 32 ∨ (Rect.block (s := S1700000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1700000x64.size a
  hwx4_2 : ∀ i : grid4.Coords, EltTy.bits .f32 = 32 ∨ (Rect.block (s := S1700000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S100000x64.size a
  hwx5_0 : ∀ i : grid5.Coords, EltTy.bits .f32 = 32 ∨ (Rect.block (s := S100000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x64.size a ≤ S100000x64.size a
  hwx5_2 : ∀ i : grid5.Coords, EltTy.bits .f32 = 32 ∨ (Rect.block (s := S100000x64) S20000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46) S20000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x64, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Matmul0.lean ====
/-
  The dense product call of a layer: a table of 100,000 rows of 64 entries times a 64 × 64 matrix.

  The call walks the rows in 5 blocks of 20,000. Block t reads rows 20,000 t … 20,000 t + 19,999 of the table and
  the whole matrix, narrows both to bfloat16 (a change of format, which leaves an extended real as it is),
  multiplies them on the matrix unit into a zero accumulator, and writes the product back to the same rows of
  the result. Entry (p, q) of a block's product is the sum over k of block (p, k) · matrix (k, q), which reads only
  row p of the block; the blocks tile the rows. So when the call ends entry (r, q) of its result is the sum over
  k of table (r, k) · matrix (k, q), whatever the region found in its two input arrays.
-/
import proofs.«426287_j74354473828951_2_alg».proof.Proof.Gen.KernelIdeal.Frame
import proofs.«426287_j74354473828951_2_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The table times the matrix: entry (r, q) is the sum over k of table (r, k) · matrix (k, q). -/
def product (x : S100000x64.Idx → EReal) (w : S64x64.Idx → EReal) : S100000x64.Idx → EReal :=
  fun i => ∑ k : Fin 64, x (ix2 (⟨(i 0).val, idx2_lt0 i⟩ : Fin 100000) k) * w (ix2 k (⟨(i 1).val, idx2_lt1 i⟩ : Fin 64))

/-- What the body stores, at row p and column q of its block: row p of the block against column q of the matrix. -/
theorem stored_apply (x0 : Vec Ideal S20000x64 .f32) (x1 : Vec Ideal S64x64 .f32) (p : Fin 20000) (q : Fin 64) :
    k0_pay1 x0 x1 (ix2 p q) = ∑ k : Fin 64, x0 (ix2 p k) * x1 (ix2 k q) := by
  unfold k0_pay1
  exact Cert.LibPlainDot.matmul_zero_apply dot_S20000x64_S64x64_S20000x64_1_0_0_1_n_n rfl rfl rfl rfl rfl rfl none
    (truncf .bf16 x0 bitsLt_bf16_f32) (truncf .bf16 x1 bitsLt_bf16_f32) p q

/-- Block t of the table and of the result starts at row 20,000 t; the matrix has one block. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point t, read at (p, k), is the table at row 20,000 t + p. -/
theorem table_block (c : Dev nD) (t : Fin cfg0.N) (p : Fin 20000) (k : Fin 64) (i : S100000x64.Idx)
    (h0 : (i 0).val = t.val * 20000 + p.val) (h1 : (i 1).val = k.val) :
    (iblk0 V c 0 t : Vec Ideal S20000x64 .f32) (ix2 p k) = (V c main_arg0 : S100000x64.Idx → EReal) i := by
  obtain ⟨e0, e1, -, -, -, -⟩ := blocks_at t
  show (V c main_arg0 : S100000x64.Idx → EReal) (((cfg0.win 0).blk t).view.emb (ix2 p k)) = _
  refine congrArg _ (funext fun a => Fin.ext ?_)
  match a with
  | ⟨0, _⟩ => show win0_0.index t (0 : Fin 2) * 20000 + 1 * p.val = (i 0).val; omega
  | ⟨1, _⟩ => show win0_0.index t (1 : Fin 2) * 64 + 1 * k.val = (i 1).val; omega

/-- The matrix's one block is the matrix. -/
theorem matrix_block (c : Dev nD) (t : Fin cfg0.N) (k q : Fin 64) (i : S64x64.Idx)
    (h0 : (i 0).val = k.val) (h1 : (i 1).val = q.val) :
    (iblk0 V c 1 t : Vec Ideal S64x64 .f32) (ix2 k q) = (V c main_arg2 : S64x64.Idx → EReal) i := by
  obtain ⟨-, -, e2, e3, -, -⟩ := blocks_at t
  show (V c main_arg2 : S64x64.Idx → EReal) (((cfg0.win 1).blk t).view.emb (ix2 k q)) = _
  refine congrArg _ (funext fun a => Fin.ext ?_)
  match a with
  | ⟨0, _⟩ => show win0_1.index t (0 : Fin 2) * 64 + 1 * k.val = (i 0).val; omega
  | ⟨1, _⟩ => show win0_1.index t (1 : Fin 2) * 64 + 1 * q.val = (i 1).val; omega

/-- What point t writes back is block t of the product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S20000x64) hz, View.ld_unit_zero (S := S64x64) hz]
  obtain ⟨-, -, -, -, e4, e5⟩ := blocks_at t
  funext j
  obtain ⟨p, q, rfl⟩ : ∃ (p : Fin 20000) (q : Fin 64), j = ix2 p q := ⟨j 0, j 1, eq_ix2 j⟩
  refine (stored_apply (iblk0 V c 0 t) (iblk0 V c 1 t) p q).trans ?_
  show _ = product (V c main_arg0) (V c main_arg2) (((cfg0.win 2).blk t).view.emb (ix2 p q))
  have r0 : ((((cfg0.win 2).blk t).view.emb (ix2 p q)) 0).val = t.val * 20000 + p.val := by
    show win0_2.index t (0 : Fin 2) * 20000 + 1 * p.val = _; omega
  have r1 : ((((cfg0.win 2).blk t).view.emb (ix2 p q)) 1).val = q.val := by
    show win0_2.index t (1 : Fin 2) * 64 + 1 * q.val = _; omega
  unfold product
  refine Finset.sum_congr rfl fun k _ => ?_
  exact congrArg₂ (fun a b : EReal => a * b) (table_block V c t p k _ r0 rfl) (matrix_block V c t k q _ rfl r1)

/-- An index of the result is in point t's block iff each coordinate is in the block's range on its axis. -/
theorem mem_block (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v31).slice (win0_2.rect t)).set ↔ _
  rw [View.set_slice_whole, Rect.mem_set_unit]
  exact Iff.rfl

/-- Row r lies in block r / 20,000. -/
theorem covered (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 5 := N_0
  let t : Fin cfg0.N := ⟨(i 0).val / 20000, by rw [hN]; omega⟩
  obtain ⟨-, -, -, -, e4, e5⟩ := blocks_at t
  have ht : t.val = (i 0).val / 20000 := rfl
  refine ⟨t, flush0_2 t, ?_⟩
  rw [mem_block]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- THE RESULT ARRAY when the call ends: the table found at entry times the matrix found at entry. -/
theorem result (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Matmul0

end
-- ==== Proof.Scale1.lean ====
/-
  The scaling call of a layer: every row of the gathered table is multiplied by the edge's weight.

  The table has 1,700,000 rows of 64 entries, one row per edge, and the weights form one column of 1,700,000
  entries. The call walks the rows in 170 blocks of 10,000: block t reads rows 10,000 t … 10,000 t + 9,999 of the
  table and the same rows of the weight column, stretches each weight along its row, multiplies entry by entry,
  and writes the products back to the same rows. The blocks tile the rows, so when the call ends entry (e, j) of
  its result is table (e, j) times weight (e, 0), whatever the region found in its two input arrays.
-/
import proofs.«426287_j74354473828951_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row e of the table scaled by entry e of the weight column. -/
def scaled (h : S1700000x64.Idx → EReal) (n : S1700000x1.Idx → EReal) : S1700000x64.Idx → EReal :=
  fun i => h i * n (ix2 (⟨(i 0).val, idx2_lt0 i⟩ : Fin 1700000) (0 : Fin 1))

/-- What the body stores, at row p and column q of its block: the table's entry times the weight of row p. -/
theorem stored_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  simp only [shapeCast_self]
  rw [mulf_apply]
  refine congrArg (x0 (ix2 p q) * ·) ?_
  refine broadcastTo_apply x1 broadcasts_S10000x1_S10000x64 (ix2 p q) (ix2 p (0 : Fin 1)) fun a => ?_
  match a with
  | ⟨0, _⟩ => show p.val = if (10000 : Nat) = 1 then 0 else p.val; rw [if_neg (by decide)]
  | ⟨1, _⟩ => show (0 : Nat) = if (1 : Nat) = 1 then 0 else q.val; rw [if_pos rfl]

/-- Block t of every window starts at row 10,000 t and column 0. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The table's block at point t, read at (p, q), is the table at row 10,000 t + p. -/
theorem table_block (c : Dev nD) (t : Fin cfg1.N) (p : Fin 10000) (q : Fin 64) (i : S1700000x64.Idx)
    (h0 : (i 0).val = t.val * 10000 + p.val) (h1 : (i 1).val = q.val) :
    (iblk1 V c 0 t : Vec Ideal S10000x64 .f32) (ix2 p q) = (V c main_v32 : S1700000x64.Idx → EReal) i := by
  obtain ⟨e0, e1, -, -, -, -⟩ := blocks_at t
  show (V c main_v32 : S1700000x64.Idx → EReal) (((cfg1.win 0).blk t).view.emb (ix2 p q)) = _
  refine congrArg _ (funext fun a => Fin.ext ?_)
  match a with
  | ⟨0, _⟩ => show win1_0.index t (0 : Fin 2) * 10000 + 1 * p.val = (i 0).val; omega
  | ⟨1, _⟩ => show win1_0.index t (1 : Fin 2) * 64 + 1 * q.val = (i 1).val; omega

/-- The weight column's block at point t, read at (p, 0), is the column at row 10,000 t + p. -/
theorem weight_block (c : Dev nD) (t : Fin cfg1.N) (p : Fin 10000) (i : S1700000x1.Idx)
    (h0 : (i 0).val = t.val * 10000 + p.val) :
    (iblk1 V c 1 t : Vec Ideal S10000x1 .f32) (ix2 p (0 : Fin 1)) = (V c main_v30 : S1700000x1.Idx → EReal) i := by
  obtain ⟨-, -, e2, e3, -, -⟩ := blocks_at t
  show (V c main_v30 : S1700000x1.Idx → EReal) (((cfg1.win 1).blk t).view.emb (ix2 p (0 : Fin 1))) = _
  refine congrArg _ (funext fun a => Fin.ext ?_)
  have hi1 : (i 1).val < 1 := (i 1).isLt
  match a with
  | ⟨0, _⟩ => show win1_1.index t (0 : Fin 2) * 10000 + 1 * p.val = (i 0).val; omega
  | ⟨1, _⟩ => show win1_1.index t (1 : Fin 2) * 1 + 1 * 0 = (i 1).val; omega

/-- What point t writes back is block t of the scaled table. -/
theorem flushed_eq (c : Dev nD) (t : Fin cfg1.N) :
    (dat1 V c).flushed 2 t = ((cfg1.win 2).blk t).view.read (Elt Ideal) (scaled (V c main_v32) (V c main_v30)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  obtain ⟨-, -, -, -, e4, e5⟩ := blocks_at t
  funext j
  obtain ⟨p, q, rfl⟩ : ∃ (p : Fin 10000) (q : Fin 64), j = ix2 p q := ⟨j 0, j 1, eq_ix2 j⟩
  refine (stored_apply (iblk1 V c 0 t) (iblk1 V c 1 t) p q).trans ?_
  show _ = scaled (V c main_v32) (V c main_v30) (((cfg1.win 2).blk t).view.emb (ix2 p q))
  have r0 : ((((cfg1.win 2).blk t).view.emb (ix2 p q)) 0).val = t.val * 10000 + p.val := by
    show win1_2.index t (0 : Fin 2) * 10000 + 1 * p.val = _; omega
  have r1 : ((((cfg1.win 2).blk t).view.emb (ix2 p q)) 1).val = q.val := by
    show win1_2.index t (1 : Fin 2) * 64 + 1 * q.val = _; omega
  unfold scaled
  exact congrArg₂ (fun a b : EReal => a * b) (table_block V c t p q _ r0 r1)
    (weight_block V c t p (ix2 (⟨_, idx2_lt0 _⟩ : Fin 1700000) (0 : Fin 1)) r0)

/-- An index of the result is in point t's block iff each coordinate is in the block's range on its axis. -/
theorem mem_block (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v33).slice (win1_2.rect t)).set ↔ _
  rw [View.set_slice_whole, Rect.mem_set_unit]
  exact Iff.rfl

/-- Row e lies in block e / 10,000. -/
theorem covered (i : S1700000x64.Idx) : ∃ t : Fin cfg1.N, (cfg1.win 2).flush t = true ∧ i ∈ ((cfg1.win 2).blk t).view.set := by
  have hi0 : (i 0).val < 1700000 := idx2_lt0 i
  have hi1 : (i 1).val < 64 := idx2_lt1 i
  have hN : cfg1.N = 170 := N_1
  let t : Fin cfg1.N := ⟨(i 0).val / 10000, by rw [hN]; omega⟩
  obtain ⟨-, -, -, -, e4, e5⟩ := blocks_at t
  have ht : t.val = (i 0).val / 10000 := rfl
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE RESULT ARRAY when the call ends: the table found at entry, each row scaled by its weight. -/
theorem result (c : Dev nD) : (dat1 V c).arrAt 2 cfg1.N = scaled (V c main_v32) (V c main_v30) :=
  (dat1 V c).arrAt_eq_of_cover 2 (scaled (V c main_v32) (V c main_v30)) (fun t _ => flushed_eq V c t) covered

end Cert.KernelIdeal.Scale1

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.BiasRelu2.lean ====
/-
  The bias call of the first layer: the bias row is added to every row of the aggregated table and negative
  entries are raised to zero.

  The table has 100,000 rows of 64 entries and the bias is a single row of 64 entries. The call walks the rows in
  5 blocks of 20,000: block t reads rows 20,000 t … 20,000 t + 19,999 of the table and, every time, the whole bias
  row; it repeats the bias row under each of its 20,000 rows, adds entry by entry, takes the larger of each sum and
  zero, and writes the outcome back to the same rows. Row r lies in block r / 20,000 and in no other, so the five
  blocks tile the table, and when the call ends entry (r, j) of its result is max (table (r, j) + bias (0, j), 0),
  whatever the region found in its two input arrays.

  When the bias row is a vector of 64 entries laid out as one row, this is the reference's chain of stages: the
  vector repeated along the rows, added to the table, and the sum compared with a table of zeros.
-/
import proofs.«426287_j74354473828951_2_alg».proof.Proof.Gen.KernelIdeal.Frame
import proofs.«426287_j74354473828951_2_alg».proof.Proof.RefReadP
import proofs.«426287_j74354473828951_2_alg».proof.Proof.LibReshapeAsBroadcast
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu2

open Cert.KernelIdeal Cert.KernelIdeal.Gen

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- Entry (r, j) of the table plus entry (0, j) of the bias row, raised to zero when negative. -/
def biasRelu (a : S100000x64.Idx → EReal) (b : S1x64.Idx → EReal) : S100000x64.Idx → EReal :=
  fun i => max (a i + b (ix2 (0 : Fin 1) (⟨(i 1).val, idx2_lt1 i⟩ : Fin 64))) 0

/-- What the body stores, at row p and column q of its block: the block's entry plus entry q of the bias row,
    or zero if that sum is negative. -/
theorem stored_apply (x0 : Vec Ideal S20000x64 .f32) (x1 : Vec Ideal S1x64 .f32) (p : Fin 20000) (q : Fin 64) :
    k2_pay1 x0 x1 (ix2 p q) = max (x0 (ix2 p q) + x1 (ix2 (0 : Fin 1) q)) 0 := by
  unfold k2_pay1
  simp only [shapeCast_self]
  rw [maximumf_apply, addf_apply, broadcast_apply]
  -- the constant compared with is the real number zero
  have h0 : (Scalar.ofBits .f32 0x00000000#32 : Ideal .f32) = (0 : EReal) := Ideal.ofBits_zero_f32
  rw [h0]
  refine congrArg (fun e : EReal => max (x0 (ix2 p q) + e) 0) ?_
  -- the bias row repeated under row p is read at its only row, 0, and at the same column
  refine broadcastTo_apply x1 broadcasts_S1x64_S20000x64 (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-- Block t of the table and of the result starts at row 20,000 t and column 0; the bias row's only block starts
    at (0, 0) for every t. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The table's block at point t, read at (p, q), is the table at row 20,000 t + p. -/
theorem table_block (c : Dev nD) (t : Fin cfg2.N) (p : Fin 20000) (q : Fin 64) (i : S100000x64.Idx)
    (h0 : (i 0).val = t.val * 20000 + p.val) (h1 : (i 1).val = q.val) :
    (iblk2 V c 0 t : Vec Ideal S20000x64 .f32) (ix2 p q) = (V c main_v36 : S100000x64.Idx → EReal) i := by
  obtain ⟨e0, e1, -, -, -, -⟩ := blocks_at t
  show (V c main_v36 : S100000x64.Idx → EReal) (((cfg2.win 0).blk t).view.emb (ix2 p q)) = _
  refine congrArg _ (funext fun a => Fin.ext ?_)
  match a with
  | ⟨0, _⟩ => show win2_0.index t (0 : Fin 2) * 20000 + 1 * p.val = (i 0).val; omega
  | ⟨1, _⟩ => show win2_0.index t (1 : Fin 2) * 64 + 1 * q.val = (i 1).val; omega

/-- The bias row's block at any point, read at (0, q), is the bias row at (0, q). -/
theorem bias_block (c : Dev nD) (t : Fin cfg2.N) (q : Fin 64) :
    (iblk2 V c 1 t : Vec Ideal S1x64 .f32) (ix2 (0 : Fin 1) q) = (V c main_v37 : S1x64.Idx → EReal) (ix2 (0 : Fin 1) q) := by
  obtain ⟨-, -, e2, e3, -, -⟩ := blocks_at t
  show (V c main_v37 : S1x64.Idx → EReal) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- What point t writes back is block t of the biased, clipped table. -/
theorem flushed_eq (c : Dev nD) (t : Fin cfg2.N) :
    (dat2 V c).flushed 2 t = ((cfg2.win 2).blk t).view.read (Elt Ideal) (biasRelu (V c main_v36) (V c main_v37)) := by
  show (cfg2.win 2).cut (grid2.coords t) ((dat2 V c).after 2 t) = _
  rw [after2_2]
  unfold out2_2
  rw [View.canon_unit_zero hz]
  simp only [View.ld_unit_zero (S := S20000x64) hz, View.ld_unit_zero (S := S1x64) hz]
  obtain ⟨-, -, -, -, e4, e5⟩ := blocks_at t
  funext j
  obtain ⟨p, q, rfl⟩ : ∃ (p : Fin 20000) (q : Fin 64), j = ix2 p q := ⟨j 0, j 1, eq_ix2 j⟩
  refine (stored_apply (iblk2 V c 0 t) (iblk2 V c 1 t) p q).trans ?_
  show _ = biasRelu (V c main_v36) (V c main_v37) (((cfg2.win 2).blk t).view.emb (ix2 p q))
  have r0 : ((((cfg2.win 2).blk t).view.emb (ix2 p q)) 0).val = t.val * 20000 + p.val := by
    show win2_2.index t (0 : Fin 2) * 20000 + 1 * p.val = _; omega
  have r1 : ((((cfg2.win 2).blk t).view.emb (ix2 p q)) 1).val = q.val := by
    show win2_2.index t (1 : Fin 2) * 64 + 1 * q.val = _; omega
  unfold biasRelu
  have hq : q = (⟨((((cfg2.win 2).blk t).view.emb (ix2 p q)) 1).val, idx2_lt1 _⟩ : Fin 64) := Fin.ext r1.symm
  exact congrArg₂ (fun x y : EReal => max (x + y) 0) (table_block V c t p q _ r0 r1)
    ((bias_block V c t q).trans (congrArg (fun k : Fin 64 => (V c main_v37 : S1x64.Idx → EReal) (ix2 (0 : Fin 1) k)) hq))

/-- An index of the result is in point t's block iff each coordinate is in the block's range on its axis. -/
theorem mem_block (t : Fin cfg2.N) (i : S100000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v38).slice (win2_2.rect t)).set ↔ _
  rw [View.set_slice_whole, Rect.mem_set_unit]
  exact Iff.rfl

/-- Row r lies in block r / 20,000. -/
theorem covered (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 5 := N_2
  let t : Fin cfg2.N := ⟨(i 0).val / 20000, by rw [hN]; omega⟩
  obtain ⟨-, -, -, -, e4, e5⟩ := blocks_at t
  have ht : t.val = (i 0).val / 20000 := rfl
  refine ⟨t, flush2_2 t, ?_⟩
  rw [mem_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 64 ≤ (i 1).val ∧ (i 1).val < win2_2.index t (1 : Fin 2) * 64 + 64; omega

/-- THE RESULT ARRAY when the call ends. -/
theorem result (c : Dev nD) : (dat2 V c).arrAt 2 cfg2.N = biasRelu (V c main_v36) (V c main_v37) :=
  (dat2 V c).arrAt_eq_of_cover 2 (biasRelu (V c main_v36) (V c main_v37)) (fun t _ => flushed_eq V c t) covered

/-- The table of zeros the reference compares with holds the real number zero everywhere. -/
theorem zeros_apply (i : S100000x64.Idx) : Cert.ReferenceIdeal.ReadP.val_main_call1_v0 (F := Ideal) i = (0 : EReal) := by
  rw [Cert.ReferenceIdeal.ReadP.val_main_call1_v0_apply]
  exact Ideal.ofBits_zero_f32

/-- The reference's repeated bias, at (r, j), is entry (0, j) of the vector laid out as one row. -/
theorem bias_rows_apply (b : FVec Ideal S64 .f32) (i : S100000x64.Idx) :
    Cert.ReferenceIdeal.ReadP.val_main_v45 (F := Ideal) b i
      = shapeCast S1x64 b shapeCasts_S64_S1x64 (ix2 (0 : Fin 1) (⟨(i 1).val, idx2_lt1 i⟩ : Fin 64)) := by
  rw [Cert.ReferenceIdeal.ReadP.val_main_v45_apply,
    ReshapeAsBroadcast.shapeCast_row 64 b shapeCasts_S64_S1x64 Cert.ReferenceIdeal.Gen.bcast_S64_S1x64_1]
  unfold Cert.ReferenceIdeal.ReadP.val_main_v44
  refine congrArg _ (funext fun a => ?_)
  match a with
  | ⟨0, _⟩ => rfl
  | ⟨1, _⟩ => rfl

/-- With the bias row a reshaped vector, this is the reference's "add the broadcast vector, then maximum with zero". -/
theorem biasRelu_eq (a : FVec Ideal S100000x64 .f32) (b : FVec Ideal S64 .f32) :
    biasRelu a (shapeCast S1x64 b shapeCasts_S64_S1x64)
      = maximumf (addf a (Cert.ReferenceIdeal.ReadP.val_main_v45 (F := Ideal) b)) (Cert.ReferenceIdeal.ReadP.val_main_call1_v0 (F := Ideal)) := by
  funext i
  rw [maximumf_apply, addf_apply, zeros_apply, bias_rows_apply]
  rfl

end Cert.KernelIdeal.BiasRelu2

end
-- ==== Proof.Matmul3.lean ====
/-
  The dense product call of the second layer: the first layer's result, a table of 100,000 rows of 64 entries, times the second 64 × 64 matrix.

  The call walks the rows in 5 blocks of 20,000. Block t reads rows 20,000 t … 20,000 t + 19,999 of the table and
  the whole matrix, narrows both to bfloat16 (a change of format, which leaves an extended real as it is),
  multiplies them on the matrix unit into a zero accumulator, and writes the product back to the same rows of
  the result. Entry (p, q) of a block's product is the sum over k of block (p, k) · matrix (k, q), which reads only
  row p of the block; the blocks tile the rows. So when the call ends entry (r, q) of its result is the sum over
  k of table (r, k) · matrix (k, q), whatever the region found in its two input arrays.
-/
import proofs.«426287_j74354473828951_2_alg».proof.Proof.Gen.KernelIdeal.Frame
import proofs.«426287_j74354473828951_2_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The table times the matrix: entry (r, q) is the sum over k of table (r, k) · matrix (k, q). -/
def product (x : S100000x64.Idx → EReal) (w : S64x64.Idx → EReal) : S100000x64.Idx → EReal :=
  fun i => ∑ k : Fin 64, x (ix2 (⟨(i 0).val, idx2_lt0 i⟩ : Fin 100000) k) * w (ix2 k (⟨(i 1).val, idx2_lt1 i⟩ : Fin 64))

/-- What the body stores, at row p and column q of its block: row p of the block against column q of the matrix
    (the body first recasts the block to the shape it already has, which leaves every entry where it is). -/
theorem stored_apply (x0 : Vec Ideal S20000x64 .f32) (x1 : Vec Ideal S64x64 .f32) (p : Fin 20000) (q : Fin 64) :
    k3_pay1 x0 x1 (ix2 p q) = ∑ k : Fin 64, x0 (ix2 p k) * x1 (ix2 k q) := by
  unfold k3_pay1
  simp only [shapeCast_self]
  exact Cert.LibPlainDot.matmul_zero_apply dot_S20000x64_S64x64_S20000x64_1_0_0_1_n_n rfl rfl rfl rfl rfl rfl none
    (truncf .bf16 x0 bitsLt_bf16_f32) (truncf .bf16 x1 bitsLt_bf16_f32) p q

/-- Block t of the table and of the result starts at row 20,000 t; the matrix has one block. -/
theorem blocks_at : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The table's block at point t, read at (p, k), is the table at row 20,000 t + p. -/
theorem table_block (c : Dev nD) (t : Fin cfg3.N) (p : Fin 20000) (k : Fin 64) (i : S100000x64.Idx)
    (h0 : (i 0).val = t.val * 20000 + p.val) (h1 : (i 1).val = k.val) :
    (iblk3 V c 0 t : Vec Ideal S20000x64 .f32) (ix2 p k) = (V c main_v38 : S100000x64.Idx → EReal) i := by
  obtain ⟨e0, e1, -, -, -, -⟩ := blocks_at t
  show (V c main_v38 : S100000x64.Idx → EReal) (((cfg3.win 0).blk t).view.emb (ix2 p k)) = _
  refine congrArg _ (funext fun a => Fin.ext ?_)
  match a with
  | ⟨0, _⟩ => show win3_0.index t (0 : Fin 2) * 20000 + 1 * p.val = (i 0).val; omega
  | ⟨1, _⟩ => show win3_0.index t (1 : Fin 2) * 64 + 1 * k.val = (i 1).val; omega

/-- The matrix's one block is the matrix. -/
theorem matrix_block (c : Dev nD) (t : Fin cfg3.N) (k q : Fin 64) (i : S64x64.Idx)
    (h0 : (i 0).val = k.val) (h1 : (i 1).val = q.val) :
    (iblk3 V c 1 t : Vec Ideal S64x64 .f32) (ix2 k q) = (V c main_arg4 : S64x64.Idx → EReal) i := by
  obtain ⟨-, -, e2, e3, -, -⟩ := blocks_at t
  show (V c main_arg4 : S64x64.Idx → EReal) (((cfg3.win 1).blk t).view.emb (ix2 k q)) = _
  refine congrArg _ (funext fun a => Fin.ext ?_)
  match a with
  | ⟨0, _⟩ => show win3_1.index t (0 : Fin 2) * 64 + 1 * k.val = (i 0).val; omega
  | ⟨1, _⟩ => show win3_1.index t (1 : Fin 2) * 64 + 1 * q.val = (i 1).val; omega

/-- What point t writes back is block t of the product. -/
theorem flushed_eq (c : Dev nD) (t : Fin cfg3.N) :
    (dat3 V c).flushed 2 t = ((cfg3.win 2).blk t).view.read (Elt Ideal) (product (V c main_v38) (V c main_arg4)) := by
  show (cfg3.win 2).cut (grid3.coords t) ((dat3 V c).after 2 t) = _
  rw [after3_2]
  unfold out3_2
  rw [View.canon_unit_zero hz]
  simp only [View.ld_unit_zero (S := S20000x64) hz, View.ld_unit_zero (S := S64x64) hz]
  obtain ⟨-, -, -, -, e4, e5⟩ := blocks_at t
  funext j
  obtain ⟨p, q, rfl⟩ : ∃ (p : Fin 20000) (q : Fin 64), j = ix2 p q := ⟨j 0, j 1, eq_ix2 j⟩
  refine (stored_apply (iblk3 V c 0 t) (iblk3 V c 1 t) p q).trans ?_
  show _ = product (V c main_v38) (V c main_arg4) (((cfg3.win 2).blk t).view.emb (ix2 p q))
  have r0 : ((((cfg3.win 2).blk t).view.emb (ix2 p q)) 0).val = t.val * 20000 + p.val := by
    show win3_2.index t (0 : Fin 2) * 20000 + 1 * p.val = _; omega
  have r1 : ((((cfg3.win 2).blk t).view.emb (ix2 p q)) 1).val = q.val := by
    show win3_2.index t (1 : Fin 2) * 64 + 1 * q.val = _; omega
  unfold product
  refine Finset.sum_congr rfl fun k _ => ?_
  exact congrArg₂ (fun a b : EReal => a * b) (table_block V c t p k _ r0 rfl) (matrix_block V c t k q _ rfl r1)

/-- An index of the result is in point t's block iff each coordinate is in the block's range on its axis. -/
theorem mem_block (t : Fin cfg3.N) (i : S100000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v39).slice (win3_2.rect t)).set ↔ _
  rw [View.set_slice_whole, Rect.mem_set_unit]
  exact Iff.rfl

/-- Row r lies in block r / 20,000. -/
theorem covered (i : S100000x64.Idx) : ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 5 := N_3
  let t : Fin cfg3.N := ⟨(i 0).val / 20000, by rw [hN]; omega⟩
  obtain ⟨-, -, -, -, e4, e5⟩ := blocks_at t
  have ht : t.val = (i 0).val / 20000 := rfl
  refine ⟨t, flush3_2 t, ?_⟩
  rw [mem_block]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 64 ≤ (i 1).val ∧ (i 1).val < win3_2.index t (1 : Fin 2) * 64 + 64; omega

/-- THE RESULT ARRAY when the call ends: the table found at entry times the matrix found at entry. -/
theorem result (c : Dev nD) : (dat3 V c).arrAt 2 cfg3.N = product (V c main_v38) (V c main_arg4) :=
  (dat3 V c).arrAt_eq_of_cover 2 (product (V c main_v38) (V c main_arg4)) (fun t _ => flushed_eq V c t) covered

end Cert.KernelIdeal.Matmul3

end
-- ==== Proof.Scale4.lean ====
/-
  The scaling call of the second layer: every row of the second layer's gathered table is multiplied by the edge's weight.

  The table has 1,700,000 rows of 64 entries, one row per edge, and the weights form one column of 1,700,000
  entries. The call walks the rows in 170 blocks of 10,000: block t reads rows 10,000 t … 10,000 t + 9,999 of the
  table and the same rows of the weight column, stretches each weight along its row, multiplies entry by entry,
  and writes the products back to the same rows. The blocks tile the rows, so when the call ends entry (e, j) of
  its result is table (e, j) times weight (e, 0), whatever the region found in its two input arrays.
-/
import proofs.«426287_j74354473828951_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row e of the table scaled by entry e of the weight column. -/
def scaled (h : S1700000x64.Idx → EReal) (n : S1700000x1.Idx → EReal) : S1700000x64.Idx → EReal :=
  fun i => h i * n (ix2 (⟨(i 0).val, idx2_lt0 i⟩ : Fin 1700000) (0 : Fin 1))

/-- What the body stores, at row p and column q of its block: the table's entry times the weight of row p. -/
theorem stored_apply (x0 : Vec Ideal S10000x64 .f32) (x1 : Vec Ideal S10000x1 .f32) (p : Fin 10000) (q : Fin 64) :
    k4_pay1 x0 x1 (ix2 p q) = x0 (ix2 p q) * x1 (ix2 p (0 : Fin 1)) := by
  unfold k4_pay1
  simp only [shapeCast_self]
  rw [mulf_apply]
  refine congrArg (x0 (ix2 p q) * ·) ?_
  refine broadcastTo_apply x1 broadcasts_S10000x1_S10000x64 (ix2 p q) (ix2 p (0 : Fin 1)) fun a => ?_
  match a with
  | ⟨0, _⟩ => show p.val = if (10000 : Nat) = 1 then 0 else p.val; rw [if_neg (by decide)]
  | ⟨1, _⟩ => show (0 : Nat) = if (1 : Nat) = 1 then 0 else q.val; rw [if_pos rfl]

/-- Block t of every window starts at row 10,000 t and column 0. -/
theorem blocks_at : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The table's block at point t, read at (p, q), is the table at row 10,000 t + p. -/
theorem table_block (c : Dev nD) (t : Fin cfg4.N) (p : Fin 10000) (q : Fin 64) (i : S1700000x64.Idx)
    (h0 : (i 0).val = t.val * 10000 + p.val) (h1 : (i 1).val = q.val) :
    (iblk4 V c 0 t : Vec Ideal S10000x64 .f32) (ix2 p q) = (V c main_v40 : S1700000x64.Idx → EReal) i := by
  obtain ⟨e0, e1, -, -, -, -⟩ := blocks_at t
  show (V c main_v40 : S1700000x64.Idx → EReal) (((cfg4.win 0).blk t).view.emb (ix2 p q)) = _
  refine congrArg _ (funext fun a => Fin.ext ?_)
  match a with
  | ⟨0, _⟩ => show win4_0.index t (0 : Fin 2) * 10000 + 1 * p.val = (i 0).val; omega
  | ⟨1, _⟩ => show win4_0.index t (1 : Fin 2) * 64 + 1 * q.val = (i 1).val; omega

/-- The weight column's block at point t, read at (p, 0), is the column at row 10,000 t + p. -/
theorem weight_block (c : Dev nD) (t : Fin cfg4.N) (p : Fin 10000) (i : S1700000x1.Idx)
    (h0 : (i 0).val = t.val * 10000 + p.val) :
    (iblk4 V c 1 t : Vec Ideal S10000x1 .f32) (ix2 p (0 : Fin 1)) = (V c main_v30 : S1700000x1.Idx → EReal) i := by
  obtain ⟨-, -, e2, e3, -, -⟩ := blocks_at t
  show (V c main_v30 : S1700000x1.Idx → EReal) (((cfg4.win 1).blk t).view.emb (ix2 p (0 : Fin 1))) = _
  refine congrArg _ (funext fun a => Fin.ext ?_)
  have hi1 : (i 1).val < 1 := (i 1).isLt
  match a with
  | ⟨0, _⟩ => show win4_1.index t (0 : Fin 2) * 10000 + 1 * p.val = (i 0).val; omega
  | ⟨1, _⟩ => show win4_1.index t (1 : Fin 2) * 1 + 1 * 0 = (i 1).val; omega

/-- What point t writes back is block t of the scaled table. -/
theorem flushed_eq (c : Dev nD) (t : Fin cfg4.N) :
    (dat4 V c).flushed 2 t = ((cfg4.win 2).blk t).view.read (Elt Ideal) (scaled (V c main_v40) (V c main_v30)) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  obtain ⟨-, -, -, -, e4, e5⟩ := blocks_at t
  funext j
  obtain ⟨p, q, rfl⟩ : ∃ (p : Fin 10000) (q : Fin 64), j = ix2 p q := ⟨j 0, j 1, eq_ix2 j⟩
  refine (stored_apply (iblk4 V c 0 t) (iblk4 V c 1 t) p q).trans ?_
  show _ = scaled (V c main_v40) (V c main_v30) (((cfg4.win 2).blk t).view.emb (ix2 p q))
  have r0 : ((((cfg4.win 2).blk t).view.emb (ix2 p q)) 0).val = t.val * 10000 + p.val := by
    show win4_2.index t (0 : Fin 2) * 10000 + 1 * p.val = _; omega
  have r1 : ((((cfg4.win 2).blk t).view.emb (ix2 p q)) 1).val = q.val := by
    show win4_2.index t (1 : Fin 2) * 64 + 1 * q.val = _; omega
  unfold scaled
  exact congrArg₂ (fun a b : EReal => a * b) (table_block V c t p q _ r0 r1)
    (weight_block V c t p (ix2 (⟨_, idx2_lt0 _⟩ : Fin 1700000) (0 : Fin 1)) r0)

/-- An index of the result is in point t's block iff each coordinate is in the block's range on its axis. -/
theorem mem_block (t : Fin cfg4.N) (i : S1700000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v41).slice (win4_2.rect t)).set ↔ _
  rw [View.set_slice_whole, Rect.mem_set_unit]
  exact Iff.rfl

/-- Row e lies in block e / 10,000. -/
theorem covered (i : S1700000x64.Idx) : ∃ t : Fin cfg4.N, (cfg4.win 2).flush t = true ∧ i ∈ ((cfg4.win 2).blk t).view.set := by
  have hi0 : (i 0).val < 1700000 := idx2_lt0 i
  have hi1 : (i 1).val < 64 := idx2_lt1 i
  have hN : cfg4.N = 170 := N_4
  let t : Fin cfg4.N := ⟨(i 0).val / 10000, by rw [hN]; omega⟩
  obtain ⟨-, -, -, -, e4, e5⟩ := blocks_at t
  have ht : t.val = (i 0).val / 10000 := rfl
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE RESULT ARRAY when the call ends: the table found at entry, each row scaled by its weight. -/
theorem result (c : Dev nD) : (dat4 V c).arrAt 2 cfg4.N = scaled (V c main_v40) (V c main_v30) :=
  (dat4 V c).arrAt_eq_of_cover 2 (scaled (V c main_v40) (V c main_v30)) (fun t _ => flushed_eq V c t) covered

end Cert.KernelIdeal.Scale4

end
-- ==== Proof.Bias5.lean ====
/-
  The bias call of the second layer: the bias row is added to every row of the aggregated table.

  The table has 100,000 rows of 64 entries and the bias is a single row of 64 entries. The call walks the rows in
  5 blocks of 20,000: block t reads rows 20,000 t … 20,000 t + 19,999 of the table and, every time, the whole bias
  row; it repeats the bias row under each of its 20,000 rows, adds entry by entry, and writes the sums back to the
  same rows. Row r lies in block r / 20,000 and in no other, so the five blocks tile the table, and when the call
  ends entry (r, j) of its result is table (r, j) + bias (0, j), whatever the region found in its two input arrays.

  When the bias row is a vector of 64 entries laid out as one row, this is the reference's pair of stages: the
  vector repeated along the rows, then added to the table.
-/
import proofs.«426287_j74354473828951_2_alg».proof.Proof.Gen.KernelIdeal.Frame
import proofs.«426287_j74354473828951_2_alg».proof.Proof.RefReadP
import proofs.«426287_j74354473828951_2_alg».proof.Proof.LibReshapeAsBroadcast
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias5

open Cert.KernelIdeal Cert.KernelIdeal.Gen

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- Entry (r, j) of the table plus entry (0, j) of the bias row. -/
def biased (a : S100000x64.Idx → EReal) (b : S1x64.Idx → EReal) : S100000x64.Idx → EReal :=
  fun i => a i + b (ix2 (0 : Fin 1) (⟨(i 1).val, idx2_lt1 i⟩ : Fin 64))

/-- What the body stores, at row p and column q of its block: the block's entry plus entry q of the bias row. -/
theorem stored_apply (x0 : Vec Ideal S20000x64 .f32) (x1 : Vec Ideal S1x64 .f32) (p : Fin 20000) (q : Fin 64) :
    k5_pay1 x0 x1 (ix2 p q) = x0 (ix2 p q) + x1 (ix2 (0 : Fin 1) q) := by
  unfold k5_pay1
  simp only [shapeCast_self]
  rw [addf_apply]
  refine congrArg (x0 (ix2 p q) + ·) ?_
  -- the bias row repeated under row p is read at its only row, 0, and at the same column
  refine broadcastTo_apply x1 broadcasts_S1x64_S20000x64 (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-- Block t of the table and of the result starts at row 20,000 t and column 0; the bias row's only block starts
    at (0, 0) for every t. -/
theorem blocks_at : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The table's block at point t, read at (p, q), is the table at row 20,000 t + p. -/
theorem table_block (c : Dev nD) (t : Fin cfg5.N) (p : Fin 20000) (q : Fin 64) (i : S100000x64.Idx)
    (h0 : (i 0).val = t.val * 20000 + p.val) (h1 : (i 1).val = q.val) :
    (iblk5 V c 0 t : Vec Ideal S20000x64 .f32) (ix2 p q) = (V c main_v44 : S100000x64.Idx → EReal) i := by
  obtain ⟨e0, e1, -, -, -, -⟩ := blocks_at t
  show (V c main_v44 : S100000x64.Idx → EReal) (((cfg5.win 0).blk t).view.emb (ix2 p q)) = _
  refine congrArg _ (funext fun a => Fin.ext ?_)
  match a with
  | ⟨0, _⟩ => show win5_0.index t (0 : Fin 2) * 20000 + 1 * p.val = (i 0).val; omega
  | ⟨1, _⟩ => show win5_0.index t (1 : Fin 2) * 64 + 1 * q.val = (i 1).val; omega

/-- The bias row's block at any point, read at (0, q), is the bias row at (0, q). -/
theorem bias_block (c : Dev nD) (t : Fin cfg5.N) (q : Fin 64) :
    (iblk5 V c 1 t : Vec Ideal S1x64 .f32) (ix2 (0 : Fin 1) q) = (V c main_v45 : S1x64.Idx → EReal) (ix2 (0 : Fin 1) q) := by
  obtain ⟨-, -, e2, e3, -, -⟩ := blocks_at t
  show (V c main_v45 : S1x64.Idx → EReal) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = q.val; omega

/-- What point t writes back is block t of the biased table. -/
theorem flushed_eq (c : Dev nD) (t : Fin cfg5.N) :
    (dat5 V c).flushed 2 t = ((cfg5.win 2).blk t).view.read (Elt Ideal) (biased (V c main_v44) (V c main_v45)) := by
  show (cfg5.win 2).cut (grid5.coords t) ((dat5 V c).after 2 t) = _
  rw [after5_2]
  unfold out5_2
  rw [View.canon_unit_zero hz]
  simp only [View.ld_unit_zero (S := S20000x64) hz, View.ld_unit_zero (S := S1x64) hz]
  obtain ⟨-, -, -, -, e4, e5⟩ := blocks_at t
  funext j
  obtain ⟨p, q, rfl⟩ : ∃ (p : Fin 20000) (q : Fin 64), j = ix2 p q := ⟨j 0, j 1, eq_ix2 j⟩
  refine (stored_apply (iblk5 V c 0 t) (iblk5 V c 1 t) p q).trans ?_
  show _ = biased (V c main_v44) (V c main_v45) (((cfg5.win 2).blk t).view.emb (ix2 p q))
  have r0 : ((((cfg5.win 2).blk t).view.emb (ix2 p q)) 0).val = t.val * 20000 + p.val := by
    show win5_2.index t (0 : Fin 2) * 20000 + 1 * p.val = _; omega
  have r1 : ((((cfg5.win 2).blk t).view.emb (ix2 p q)) 1).val = q.val := by
    show win5_2.index t (1 : Fin 2) * 64 + 1 * q.val = _; omega
  unfold biased
  have hq : q = (⟨((((cfg5.win 2).blk t).view.emb (ix2 p q)) 1).val, idx2_lt1 _⟩ : Fin 64) := Fin.ext r1.symm
  exact congrArg₂ (fun x y : EReal => x + y) (table_block V c t p q _ r0 r1)
    ((bias_block V c t q).trans (congrArg (fun k : Fin 64 => (V c main_v45 : S1x64.Idx → EReal) (ix2 (0 : Fin 1) k)) hq))

/-- An index of the result is in point t's block iff each coordinate is in the block's range on its axis. -/
theorem mem_block (t : Fin cfg5.N) (i : S100000x64.Idx) :
    i ∈ ((cfg5.win 2).blk t).view.set ↔ ∀ a : Fin 2, win5_2.index t a * S20000x64.size a ≤ (i a).val ∧ (i a).val < win5_2.index t a * S20000x64.size a + S20000x64.size a := by
  show i ∈ ((View.whole main_v46).slice (win5_2.rect t)).set ↔ _
  rw [View.set_slice_whole, Rect.mem_set_unit]
  exact Iff.rfl

/-- Row r lies in block r / 20,000. -/
theorem covered (i : S100000x64.Idx) : ∃ t : Fin cfg5.N, (cfg5.win 2).flush t = true ∧ i ∈ ((cfg5.win 2).blk t).view.set := by
  have hi0 : (i 0).val < 100000 := idx2_lt0 i
  have hi1 : (i 1).val < 64 := idx2_lt1 i
  have hN : cfg5.N = 5 := N_5
  let t : Fin cfg5.N := ⟨(i 0).val / 20000, by rw [hN]; omega⟩
  obtain ⟨-, -, -, -, e4, e5⟩ := blocks_at t
  have ht : t.val = (i 0).val / 20000 := rfl
  refine ⟨t, flush5_2 t, ?_⟩
  rw [mem_block]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 64 ≤ (i 1).val ∧ (i 1).val < win5_2.index t (1 : Fin 2) * 64 + 64; omega

/-- THE RESULT ARRAY when the call ends. -/
theorem result (c : Dev nD) : (dat5 V c).arrAt 2 cfg5.N = biased (V c main_v44) (V c main_v45) :=
  (dat5 V c).arrAt_eq_of_cover 2 (biased (V c main_v44) (V c main_v45)) (fun t _ => flushed_eq V c t) covered

/-- The reference's repeated bias, at (r, j), is entry (0, j) of the vector laid out as one row. -/
theorem bias_rows_apply (b : FVec Ideal S64 .f32) (i : S100000x64.Idx) :
    Cert.ReferenceIdeal.ReadP.val_main_v89 (F := Ideal) b i
      = shapeCast S1x64 b shapeCasts_S64_S1x64 (ix2 (0 : Fin 1) (⟨(i 1).val, idx2_lt1 i⟩ : Fin 64)) := by
  rw [Cert.ReferenceIdeal.ReadP.val_main_v89_apply,
    ReshapeAsBroadcast.shapeCast_row 64 b shapeCasts_S64_S1x64 Cert.ReferenceIdeal.Gen.bcast_S64_S1x64_1]
  unfold Cert.ReferenceIdeal.ReadP.val_main_v88
  refine congrArg _ (funext fun a => ?_)
  match a with
  | ⟨0, _⟩ => rfl
  | ⟨1, _⟩ => rfl

/-- With the bias row a reshaped vector, this is the reference's "add the broadcast vector". -/
theorem biased_eq (a : FVec Ideal S100000x64 .f32) (b : FVec Ideal S64 .f32) :
    biased a (shapeCast S1x64 b shapeCasts_S64_S1x64) = addf a (Cert.ReferenceIdeal.ReadP.val_main_v89 (F := Ideal) b) := by
  funext i
  rw [addf_apply, bias_rows_apply]
  rfl

end Cert.KernelIdeal.Bias5

end
-- ==== Proof.Bridges.lean ====
/-
  The kernel's whole-array functions against the reference's stages.

  The product. The matrix call leaves, at row r and column q, the sum over k of x (r, k) · w (k, q). The reference's
  dot_general of x and w contracts the second axis of x against the first axis of w and has no batch axis, so at an
  ideal value its entry (r, q) is that same sum over the 64 values of k. Both tables are read at an index split into
  its row and its column.

  The scaled table. The scaling call leaves, at row e and column j, h (e, j) times entry (e, 0) of a one-column table
  of weights. When that column is the weight vector n laid out as 1,700,000 rows of one entry, its entry (e, 0) is
  n e: a vector laid out as one column holds the same entries as the vector broadcast along axis 0 into one column.
  The reference stretches that column along the 64 columns of a row, which puts n e at every (e, j), and multiplies
  entry by entry: h (e, j) · n e on both sides.

  The second layer's edge data. The reference's second layer builds the list of source rows, the list of target
  rows, the edge weights and the tables of indices made from them once more, from the same edge array, by the same
  operations with the same literal constants (the count of 0 … 99,999 appended to each list, the ones that are
  scattered to count the edges at a row, the zeros compared against, the 0 and the 100,000 of the wrap of a negative
  index). Operation by operation the second layer's value is the first layer's: two equal constants, or one
  operation applied to operands already shown equal. The chain runs from the count through the two lists, the edge
  counts per row, their inverse square roots, the two gathers of those and their product (the weights), to the index
  columns the gathers and the scatter of the second layer read and the weights stretched over a row.
-/
import proofs.«426287_j74354473828951_2_alg».proof.Proof.Matmul0
import proofs.«426287_j74354473828951_2_alg».proof.Proof.Scale1
import proofs.«426287_j74354473828951_2_alg».proof.Proof.RefReadP
import proofs.«426287_j74354473828951_2_alg».proof.Proof.LibPlainDot
import proofs.«426287_j74354473828951_2_alg».proof.Proof.LibReshapeAsBroadcast
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen
open Cert.ReferenceIdeal.ReadP

/-- The sum over k of x (r, k) · w (k, q) is the reference's dot_general of x and w. -/
theorem product_eq (x : FVec Ideal S100000x64 .f32) (w : FVec Ideal S64x64 .f32) :
    Matmul0.product x w = val_main_v30 (F := Ideal) x w := by
  funext i
  obtain ⟨p, q, rfl⟩ : ∃ (p : Fin 100000) (q : Fin 64), i = ix2 p q := ⟨i 0, i 1, eq_ix2 i⟩
  unfold val_main_v30
  exact (Cert.LibPlainDot.dotGeneral_apply Cert.ReferenceIdeal.dot_S100000x64_S64x64_S100000x64_1_0_0_1_n_n
    rfl rfl rfl rfl rfl rfl none .single x w p q).symm

/-- Scaling row e by entry (e, 0) of a reshaped weight vector is the reference's product with the vector broadcast
    along the rows. -/
theorem scaled_eq (h : FVec Ideal S1700000x64 .f32) (n : FVec Ideal S1700000 .f32) :
    Scale1.scaled h (shapeCast S1700000x1 n shapeCasts_S1700000_S1700000x1)
      = mulf h (broadcastInDim Cert.ReferenceIdeal.S1700000x64 ![0, 1] Cert.ReferenceIdeal.Gen.bcast_S1700000x1_S1700000x64_0_1
          (broadcastInDim Cert.ReferenceIdeal.S1700000x1 ![0] Cert.ReferenceIdeal.Gen.bcast_S1700000_S1700000x1_0 n)) := by
  rw [Idealize.ShloMosaic.ReshapeAsBroadcast.shapeCast_col 1700000 n shapeCasts_S1700000_S1700000x1
    Cert.ReferenceIdeal.Gen.bcast_S1700000_S1700000x1_0]
  funext i
  rw [mulf_apply]
  unfold Scale1.scaled
  refine congrArg (h i * ·) ?_
  refine (broadcastInDim_apply ![0, 1] Cert.ReferenceIdeal.Gen.bcast_S1700000x1_S1700000x64_0_1 _ i
    (ix2 (⟨(i 0).val, idx2_lt0 i⟩ : Fin 1700000) (0 : Fin 1)) fun a => ?_).symm
  match a with
  | ⟨0, _⟩ => show (i 0).val = if (1700000 : Nat) = 1 then 0 else (i 0).val; rw [if_neg (by decide)]
  | ⟨1, _⟩ => show (0 : Nat) = if (1 : Nat) = 1 then 0 else (i 1).val; rw [if_pos rfl]

/-- Both layers append the same count 0, 1, …, 99,999 to their lists. -/
theorem v48_eq : val_main_v48 (F := Ideal) = val_main_v4 (F := Ideal) := rfl

/-- The reference builds the edge lists and the weights a second time for its second layer: the same terms. -/
theorem v49_eq (x1 : IVec S2x1600000 32) : val_main_v49 (F := Ideal) x1 = val_main_v5 (F := Ideal) x1 := by
  unfold val_main_v49 val_main_v5
  rw [v48_eq]
theorem v50_eq (x1 : IVec S2x1600000 32) : val_main_v50 (F := Ideal) x1 = val_main_v6 (F := Ideal) x1 := by
  unfold val_main_v50 val_main_v6
  rw [v48_eq]

/-- The ones that are scattered, the zeros they are added to, and the list of target rows as a column: the edge
    count of every row is the same in the two layers. -/
theorem v51_eq : val_main_v51 (F := Ideal) = val_main_v7 (F := Ideal) := rfl
theorem v52_eq : val_main_v52 (F := Ideal) = val_main_v8 (F := Ideal) := rfl
theorem v53_eq (x1 : IVec S2x1600000 32) : val_main_v53 (F := Ideal) x1 = val_main_v9 (F := Ideal) x1 := by
  unfold val_main_v53 val_main_v9
  rw [v50_eq]
theorem v54_eq (x1 : IVec S2x1600000 32) : val_main_v54 (F := Ideal) x1 = val_main_v10 (F := Ideal) x1 := by
  unfold val_main_v54 val_main_v10
  rw [v51_eq, v52_eq, v53_eq]
/-- Where the count is positive its inverse square root, elsewhere zero: the same table of 100,000 factors. -/
theorem v55_eq : val_main_v55 (F := Ideal) = val_main_v11 (F := Ideal) := rfl
theorem v56_eq (x1 : IVec S2x1600000 32) : val_main_v56 (F := Ideal) x1 = val_main_v12 (F := Ideal) x1 := by
  unfold val_main_v56 val_main_v12
  rw [v54_eq, v55_eq]
theorem v57_eq (x1 : IVec S2x1600000 32) : val_main_v57 (F := Ideal) x1 = val_main_v13 (F := Ideal) x1 := by
  unfold val_main_v57 val_main_v13
  rw [v54_eq]
theorem call2_v1_eq : val_main_call2_v1 (F := Ideal) = val_main_call0_v1 (F := Ideal) := rfl
theorem v58_eq (x1 : IVec S2x1600000 32) : val_main_v58 (F := Ideal) x1 = val_main_v14 (F := Ideal) x1 := by
  unfold val_main_v58 val_main_v14
  rw [v56_eq, v57_eq, call2_v1_eq]
/-- The source rows, a negative one wrapped by 100,000, as a column; the factors gathered at them. -/
theorem v59_eq : val_main_v59 (F := Ideal) = val_main_v15 (F := Ideal) := rfl
theorem v60_eq (x1 : IVec S2x1600000 32) : val_main_v60 (F := Ideal) x1 = val_main_v16 (F := Ideal) x1 := by
  unfold val_main_v60 val_main_v16
  rw [v49_eq, v59_eq]
theorem v61_eq : val_main_v61 (F := Ideal) = val_main_v17 (F := Ideal) := rfl
theorem v62_eq (x1 : IVec S2x1600000 32) : val_main_v62 (F := Ideal) x1 = val_main_v18 (F := Ideal) x1 := by
  unfold val_main_v62 val_main_v18
  rw [v49_eq, v61_eq]
theorem v63_eq (x1 : IVec S2x1600000 32) : val_main_v63 (F := Ideal) x1 = val_main_v19 (F := Ideal) x1 := by
  unfold val_main_v63 val_main_v19
  rw [v60_eq, v62_eq, v49_eq]
theorem v64_eq (x1 : IVec S2x1600000 32) : val_main_v64 (F := Ideal) x1 = val_main_v20 (F := Ideal) x1 := by
  unfold val_main_v64 val_main_v20
  rw [v63_eq]
theorem v65_eq (x1 : IVec S2x1600000 32) : val_main_v65 (F := Ideal) x1 = val_main_v21 (F := Ideal) x1 := by
  unfold val_main_v65 val_main_v21
  rw [v58_eq, v64_eq]
/-- The target rows likewise; the factors gathered at them; the weight of an edge is the product of its two factors. -/
theorem v66_eq : val_main_v66 (F := Ideal) = val_main_v22 (F := Ideal) := rfl
theorem v67_eq (x1 : IVec S2x1600000 32) : val_main_v67 (F := Ideal) x1 = val_main_v23 (F := Ideal) x1 := by
  unfold val_main_v67 val_main_v23
  rw [v50_eq, v66_eq]
theorem v68_eq : val_main_v68 (F := Ideal) = val_main_v24 (F := Ideal) := rfl
theorem v69_eq (x1 : IVec S2x1600000 32) : val_main_v69 (F := Ideal) x1 = val_main_v25 (F := Ideal) x1 := by
  unfold val_main_v69 val_main_v25
  rw [v50_eq, v68_eq]
theorem v70_eq (x1 : IVec S2x1600000 32) : val_main_v70 (F := Ideal) x1 = val_main_v26 (F := Ideal) x1 := by
  unfold val_main_v70 val_main_v26
  rw [v67_eq, v69_eq, v50_eq]
theorem v71_eq (x1 : IVec S2x1600000 32) : val_main_v71 (F := Ideal) x1 = val_main_v27 (F := Ideal) x1 := by
  unfold val_main_v71 val_main_v27
  rw [v70_eq]
theorem v72_eq (x1 : IVec S2x1600000 32) : val_main_v72 (F := Ideal) x1 = val_main_v28 (F := Ideal) x1 := by
  unfold val_main_v72 val_main_v28
  rw [v58_eq, v71_eq]
theorem v73_eq (x1 : IVec S2x1600000 32) : val_main_v73 (F := Ideal) x1 = val_main_v29 (F := Ideal) x1 := by
  unfold val_main_v73 val_main_v29
  rw [v65_eq, v72_eq]

/-- The column of source rows that the second layer's gather of table rows reads. -/
theorem v75_eq : val_main_v75 (F := Ideal) = val_main_v31 (F := Ideal) := rfl
theorem v76_eq (x1 : IVec S2x1600000 32) : val_main_v76 (F := Ideal) x1 = val_main_v32 (F := Ideal) x1 := by
  unfold val_main_v76 val_main_v32
  rw [v49_eq, v75_eq]
theorem v77_eq : val_main_v77 (F := Ideal) = val_main_v33 (F := Ideal) := rfl
theorem v78_eq (x1 : IVec S2x1600000 32) : val_main_v78 (F := Ideal) x1 = val_main_v34 (F := Ideal) x1 := by
  unfold val_main_v78 val_main_v34
  rw [v49_eq, v77_eq]
theorem v79_eq (x1 : IVec S2x1600000 32) : val_main_v79 (F := Ideal) x1 = val_main_v35 (F := Ideal) x1 := by
  unfold val_main_v79 val_main_v35
  rw [v76_eq, v78_eq, v49_eq]
theorem v80_eq (x1 : IVec S2x1600000 32) : val_main_v80 (F := Ideal) x1 = val_main_v36 (F := Ideal) x1 := by
  unfold val_main_v80 val_main_v36
  rw [v79_eq]
/-- The weights as a column, then stretched along the 64 entries of a row. -/
theorem v82_eq (x1 : IVec S2x1600000 32) : val_main_v82 (F := Ideal) x1 = val_main_v38 (F := Ideal) x1 := by
  unfold val_main_v82 val_main_v38
  rw [v73_eq]
theorem v83_eq (x1 : IVec S2x1600000 32) : val_main_v83 (F := Ideal) x1 = val_main_v39 (F := Ideal) x1 := by
  unfold val_main_v83 val_main_v39
  rw [v82_eq]
/-- The column of target rows that the second layer's scatter reads. -/
theorem v86_eq (x1 : IVec S2x1600000 32) : val_main_v86 (F := Ideal) x1 = val_main_v42 (F := Ideal) x1 := by
  unfold val_main_v86 val_main_v42
  rw [v50_eq]

end Cert.KernelIdeal.Bridge

end
-- ==== Proof.Carry.lean ====
/-
  Buffers that nothing writes between two boundaries of the program keep their contents.

  The program is cut at fourteen boundaries: the launch (0), the ends of the three opening host stretches (1, 2, 3;
  boundary 3 is where the first call starts), and from there on the exit of each of the six calls (4, 6, 8, 9, 11, 13)
  and the end of the host stretch that precedes the next call (5, 7, 10, 12; the third and fourth calls are adjacent).
  A host stretch changes only the result buffer of each of its operations.  A call changes only its output array:
  its two input arrays come out as they went in, and every buffer that is none of its three arrays is untouched.

  Each fact below follows ONE buffer backwards through consecutive boundaries, one step per boundary:

  * the feature matrix (argument 0) and the first weight matrix (argument 2) are the inputs of the first call; no
    operation of the three opening stretches has either of them as its result, so at boundary 3 they hold the launch
    contents;
  * the list of source rows main_v5, the list of destination rows main_v6 and the column of edge weights main_v30 are
    results of the opening stretches and are read again later: main_v5 by the stretches after boundaries 4 and 9 (the
    two row gathers), main_v6 by the stretches after boundaries 6 and 11 (the two scatter-additions), main_v30 by the
    calls entered at boundaries 5 and 10 (their second input).  Between boundary 3 and each of those places no
    operation has one of the three as its result and no call has one of them as its output, so each still holds there
    what it held at boundary 3;
  * the first bias vector (argument 3) is read by the stretch after boundary 6, the second weight matrix (argument 4)
    is an input of the call entered at boundary 8, the second bias vector (argument 5) is read by the stretch after
    boundary 11; nothing earlier writes any of them, so they hold the launch contents there.
-/
import proofs.«426287_j74354473828951_2_alg».proof.Proof.Gen.KernelIdeal.Frame
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen

/-- One host stretch, at one buffer: the result buffer of every operation of the stretch `ops` is a reference other
    than `buf` (the stretch is unfolded into its operations, each operation's written set is the singleton of its
    result, and the two references are told apart by comparison), so the contents of `buf` after the stretch are its
    contents before. -/
local macro "host_keeps " ops:ident " at " buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-- The feature matrix at the first call's entry is the launch contents: none of the three opening stretches has an
    operation whose result is argument 0. -/
theorem W3_arg0 : W3 m ρ c (Proc.devRef .tc main_arg0) = m ((c : Thread nD τ).loc main_arg0) :=
  calc W3 m ρ c (Proc.devRef .tc main_arg0)
    _ = W2 m ρ c (Proc.devRef .tc main_arg0) := host_keeps hostOps0_2 at main_arg0
    _ = W1 m ρ c (Proc.devRef .tc main_arg0) := host_keeps hostOps0_1 at main_arg0
    _ = W0 m ρ c (Proc.devRef .tc main_arg0) := host_keeps hostOps0 at main_arg0
    _ = m ((c : Thread nD τ).loc main_arg0) := rfl

/-- The first weight matrix at the first call's entry is the launch contents: none of the three opening stretches
    has an operation whose result is argument 2. -/
theorem W3_arg2 : W3 m ρ c (Proc.devRef .tc main_arg2) = m ((c : Thread nD τ).loc main_arg2) :=
  calc W3 m ρ c (Proc.devRef .tc main_arg2)
    _ = W2 m ρ c (Proc.devRef .tc main_arg2) := host_keeps hostOps0_2 at main_arg2
    _ = W1 m ρ c (Proc.devRef .tc main_arg2) := host_keeps hostOps0_1 at main_arg2
    _ = W0 m ρ c (Proc.devRef .tc main_arg2) := host_keeps hostOps0 at main_arg2
    _ = m ((c : Thread nD τ).loc main_arg2) := rfl

/-- The list of source rows is none of the first call's three arrays (features, weights, product), so the call
    leaves it alone. -/
theorem W4_v5 : W4 m ρ c (Proc.devRef .tc main_v5) = W3 m ρ c (Proc.devRef .tc main_v5) :=
  W4_of_ne m ρ c main_v5 (by decide)

/-- The column of edge weights at the second call's entry: the first call does not have it among its arrays, and the
    gather stretch that follows has no operation whose result it is. -/
theorem W5_v30 : W5 m ρ c (Proc.devRef .tc main_v30) = W3 m ρ c (Proc.devRef .tc main_v30) :=
  calc W5 m ρ c (Proc.devRef .tc main_v30)
    _ = W4 m ρ c (Proc.devRef .tc main_v30) := host_keeps hostOps1 at main_v30
    _ = W3 m ρ c (Proc.devRef .tc main_v30) := W4_of_ne m ρ c main_v30 (by decide)

/-- The list of destination rows at the second call's exit: it is an array of neither of the first two calls, and
    the gather stretch between them has no operation whose result it is. -/
theorem W6_v6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := host_keeps hostOps1 at main_v6
    _ = W3 m ρ c (Proc.devRef .tc main_v6) := W4_of_ne m ρ c main_v6 (by decide)

/-- The first bias vector at the second call's exit is the launch contents: it is an array of neither of the first
    two calls and the result of no host operation up to there. -/
theorem W6_arg3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := host_keeps hostOps1 at main_arg3
    _ = W3 m ρ c (Proc.devRef .tc main_arg3) := W4_of_ne m ρ c main_arg3 (by decide)
    _ = W2 m ρ c (Proc.devRef .tc main_arg3) := host_keeps hostOps0_2 at main_arg3
    _ = W1 m ρ c (Proc.devRef .tc main_arg3) := host_keeps hostOps0_1 at main_arg3
    _ = W0 m ρ c (Proc.devRef .tc main_arg3) := host_keeps hostOps0 at main_arg3
    _ = m ((c : Thread nD τ).loc main_arg3) := rfl

/-- The second weight matrix at the fourth call's entry (the third call's exit) is the launch contents: it is an
    array of none of the first three calls and the result of no host operation up to there. -/
theorem W8_arg4 : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := host_keeps hostOps2 at main_arg4
    _ = W5 m ρ c (Proc.devRef .tc main_arg4) := W6_of_ne m ρ c main_arg4 (by decide)
    _ = W4 m ρ c (Proc.devRef .tc main_arg4) := host_keeps hostOps1 at main_arg4
    _ = W3 m ρ c (Proc.devRef .tc main_arg4) := W4_of_ne m ρ c main_arg4 (by decide)
    _ = W2 m ρ c (Proc.devRef .tc main_arg4) := host_keeps hostOps0_2 at main_arg4
    _ = W1 m ρ c (Proc.devRef .tc main_arg4) := host_keeps hostOps0_1 at main_arg4
    _ = W0 m ρ c (Proc.devRef .tc main_arg4) := host_keeps hostOps0 at main_arg4
    _ = m ((c : Thread nD τ).loc main_arg4) := rfl

/-- The list of source rows at the fourth call's exit, where the second gather reads it: it is an array of none of
    the first four calls, and neither the first gather stretch nor the first scatter stretch has an operation whose
    result it is. -/
theorem W9_v5 : W9 m ρ c (Proc.devRef .tc main_v5) = W3 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := host_keeps hostOps2 at main_v5
    _ = W5 m ρ c (Proc.devRef .tc main_v5) := W6_of_ne m ρ c main_v5 (by decide)
    _ = W4 m ρ c (Proc.devRef .tc main_v5) := host_keeps hostOps1 at main_v5
    _ = W3 m ρ c (Proc.devRef .tc main_v5) := W4_v5 m ρ c

/-- The column of edge weights at the fifth call's entry.  The second call reads it as its second input and so
    returns it as it found it; the third and fourth calls do not have it among their arrays; the scatter stretch and
    the second gather stretch have no operation whose result it is. -/
theorem W10_v30 : W10 m ρ c (Proc.devRef .tc main_v30) = W3 m ρ c (Proc.devRef .tc main_v30) :=
  calc W10 m ρ c (Proc.devRef .tc main_v30)
    _ = W9 m ρ c (Proc.devRef .tc main_v30) := host_keeps hostOps4 at main_v30
    _ = W8 m ρ c (Proc.devRef .tc main_v30) := W9_of_ne m ρ c main_v30 (by decide)
    _ = W7 m ρ c (Proc.devRef .tc main_v30) := W8_of_ne m ρ c main_v30 (by decide)
    _ = W6 m ρ c (Proc.devRef .tc main_v30) := host_keeps hostOps2 at main_v30
    _ = W5 m ρ c (Proc.devRef .tc main_v30) :=
        (W6_arr m ρ c 1).trans (((dat1 (V5 m ρ) c).arrAt_in 1 rfl _).trans (A_eq1 (V5 m ρ) c 1))
    _ = W3 m ρ c (Proc.devRef .tc main_v30) := W5_v30 m ρ c

/-- The list of destination rows at the fifth call's exit, where the second scatter-addition reads it: it is an
    array of none of the third, fourth and fifth calls, and neither the first scatter stretch nor the second gather
    stretch has an operation whose result it is. -/
theorem W11_v6 : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := host_keeps hostOps4 at main_v6
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := host_keeps hostOps2 at main_v6
    _ = W3 m ρ c (Proc.devRef .tc main_v6) := W6_v6 m ρ c

/-- The second bias vector at the fifth call's exit is the launch contents: it is an array of none of the first
    five calls and the result of no host operation up to there. -/
theorem W11_arg5 : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := host_keeps hostOps4 at main_arg5
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := host_keeps hostOps2 at main_arg5
    _ = W5 m ρ c (Proc.devRef .tc main_arg5) := W6_of_ne m ρ c main_arg5 (by decide)
    _ = W4 m ρ c (Proc.devRef .tc main_arg5) := host_keeps hostOps1 at main_arg5
    _ = W3 m ρ c (Proc.devRef .tc main_arg5) := W4_of_ne m ρ c main_arg5 (by decide)
    _ = W2 m ρ c (Proc.devRef .tc main_arg5) := host_keeps hostOps0_2 at main_arg5
    _ = W1 m ρ c (Proc.devRef .tc main_arg5) := host_keeps hostOps0_1 at main_arg5
    _ = W0 m ρ c (Proc.devRef .tc main_arg5) := host_keeps hostOps0 at main_arg5
    _ = m ((c : Thread nD τ).loc main_arg5) := rfl

end Cert.KernelIdeal.Carry

end
-- ==== Proof.TakeMask.lean ====
/-
  Reading rows of a table by a list of row numbers, as the kernel's program spells it, against the plain gather.

  The kernel's program reads row s e of a table of 100,000 rows for each of the 1,700,000 entries of a list s: a negative
  entry is first raised by 100,000; the raised entry is tested against the range 0 … 99,999; the row is gathered; and where
  the test fails the gathered row is replaced by a fill value. The list is the 1,600,000 source indices followed by
  0, 1, …, 99,999. Where every source index lies in 0 … 99,999 no entry is negative, no entry is raised, every test
  passes, and the result is the plain gather of the rows the list names.
-/
import proofs.«426287_j74354473828951_2_alg».proof.Proof.Gen.KernelIdeal.Launch
import proofs.«426287_j74354473828951_2_alg».proof.Proof.Gen.Pre_finite_inputs
import proofs.«426287_j74354473828951_2_alg».proof.Proof.RefReadP
import Idealize.ShloMosaic.Lib.StableHlo.Predicate
import Idealize.ShloMosaic.Lib.ReduceAll
import Idealize.ShloMosaic.Lib.ValueIdx

noncomputable section

open Idealize.ShloMosaic Idealize.ShloMosaic.TcCoe Idealize.ShloMosaic.ValueIdx

namespace Cert.KernelIdeal.Take

open Cert.KernelIdeal Cert.KernelIdeal.Gen

/-- The row read as the kernel's program spells it: table `h`, list `s`. -/
def takeTerm {F : FTy → Type} [FloatOps F] (h : FVec F S100000x64 .f32) (s : IVec S1700000 32) : FVec F S1700000x64 .f32 :=
  let raised : IVec S1700000 32 :=
    select (cmpi .slt s (broadcastInDim S1700000 ![] bcast_S_S1700000 (constantI S_ 32 0#32)))
      (addi s (broadcastInDim S1700000 ![] bcast_S_S1700000 (constantI S_ 32 100000#32))) s
  let idx : IVec S1700000x1 32 := broadcastInDim S1700000x1 ![0] bcast_S1700000_S1700000x1_0 raised
  let ge : IVec S1700000x1 1 := cmpi .sge idx (broadcastInDim S1700000x1 ![] bcast_S_S1700000x1 (constantI S_ 32 0#32))
  let le : IVec S1700000x1 1 := cmpi .sle idx (broadcastInDim S1700000x1 ![0, 1] bcast_S1x1_S1700000x1_0_1
      (broadcastInDim S1x1 ![1] bcast_S1_S1x1_1 (constantI S1 32 99999#32)))
  let ok : IVec S1700000 1 := Host.reduce IntOp.andi (andi ge le) (constantI S_ 1 1#1) reducesTo_S1700000x1_S1700000_d1 h_S_
  select (broadcastInDim S1700000x64 ![0] bcast_S1700000_S1700000x64_0 ok)
    (Host.gather gather_S100000x64_S1700000x1_S1700000x64_1_0_n_n_0_1_164 h idx)
    (broadcastInDim S1700000x64 ![] bcast_S_S1700000x64 (constant S_ .f32 0x7FC00000#32))

/-! ### One word of the list -/

/-- A word that passes the signed tests "at least 0" and "below 100,000" has a value below 100,000. -/
private theorem word_lt_of_tests (w : BitVec 32) (h0 : IntOp.cmpi .sge w 0#32 = 1#1)
    (h1 : IntOp.cmpi .slt w 100000#32 = 1#1) : w.toNat < 100000 := by
  have hs := h0
  unfold IntOp.cmpi at hs
  have hs' : (0#32 : BitVec 32).sle w = true := (StableHlo.Predicate.ofBool_eq_one_iff _).1 hs
  have h31 : w.toNat < 2 ^ 31 := by
    by_contra hc
    have hi : w.toInt = (w.toNat : Int) - ((2 ^ 32 : Nat) : Int) := by
      rw [BitVec.toInt_eq_toNat_cond, if_neg (by omega)]
    simp only [BitVec.sle, decide_eq_true_eq] at hs'
    have hz : (0#32 : BitVec 32).toInt = 0 := by decide
    have := w.isLt
    omega
  exact (StableHlo.Predicate.slt_iff_toNat h31 (by decide)).1 h1

/-- For a word with a value below 100,000: it is not negative, so the raise keeps it, and it passes both range tests. -/
private theorem word_mask (w : BitVec 32) (hw : w.toNat < 100000) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have h31 : w.toNat < 2 ^ 31 := by omega
  have hneg : IntOp.cmpi .slt w 0#32 = 0#1 := by
    rcases BitVec.eq_zero_or_eq_one (IntOp.cmpi .slt w 0#32) with h | h
    · exact h
    · have := (StableHlo.Predicate.slt_iff_toNat h31 (by decide)).1 h
      exact absurd this (by simp)
  have hkeep : Scalar.select (IntOp.cmpi .slt w 0#32) (IntOp.addi w 100000#32) w = w := by
    rw [hneg]; rfl
  rw [hkeep]
  exact IntOp.andi_eq_one.2 ⟨(StableHlo.Predicate.sge_iff_toNat h31 (by decide)).2 (by simp),
    (StableHlo.Predicate.sle_iff_toNat h31 (by decide)).2 (by
      show w.toNat ≤ (99999#32 : BitVec 32).toNat
      rw [show (99999#32 : BitVec 32).toNat = 99999 from by decide]; omega)⟩

/-! ### An "and" over a list of ones -/

/-- An "and" fold from 1 over words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a List.mem_cons_self
    show l.foldl (fun r n => IntOp.andi r (f n)) (IntOp.andi 1#1 (f a)) = 1#1
    rw [ha, show IntOp.andi (1#1 : BitVec 1) 1#1 = 1#1 from by decide]
    exact foldl_andi_ones f l (fun n hn => h n (List.mem_cons_of_mem _ hn))

/-- An "and" reduction, started at 1, of an array whose entries are all 1 is 1 at every result position. -/
private theorem reduce_andi_ones {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) : Host.reduce IntOp.andi x init h hu j = 1#1 := by
  rw [Host.reduce_eq_foldl, hinit]
  exact foldl_andi_ones x _ (fun n _ => hx n)

/-- A selection under a mask of ones is its first branch. -/
private theorem select_ones {s : Shape} {α : Type} (c : IVec s 1) (a b : s.Idx → α) (hc : ∀ i, c i = 1#1) :
    select c a b = a := by
  funext i
  show Scalar.select (c i) (a i) (b i) = a i
  rw [hc]; rfl

/-! ### The precondition, read at one source index -/

private instance : Subsingleton Cert.Pre_finite_inputs.S_.Idx := ⟨fun a b => funext fun d => d.elim0⟩

/-- Under the precondition every source index (row 0 of the edge table, as a list) has a value below 100,000. -/
private theorem src_lt (x0 : FVec Ideal S100000x64 .f32) (x1 : IVec S2x1600000 32) (x2 : FVec Ideal S64x64 .f32)
    (x3 : FVec Ideal S64 .f32) (x4 : FVec Ideal S64x64 .f32) (x5 : FVec Ideal S64 .f32)
    (hpre : Cert.Pre_finite_inputs.fn (F := Ideal) x0 x1 x2 x3 x4 x5 = fun _ => 1#1)
    (i : Cert.ReferenceIdeal.S1600000.Idx) :
    (Cert.ReferenceIdeal.ReadP.val_main_v1 (F := Ideal) x1 i).toNat < 100000 := by
  have hj := congrFun hpre (fun a => a.elim0)
  dsimp only [Cert.Pre_finite_inputs.fn, Cert.Pre_finite_inputs.fn_part1] at hj
  have h33 := (IntOp.andi_eq_one.1 hj).2
  have h32 := Host.reduce_andi_all _ _ _ _ _ h33 i
  obtain ⟨ha, hb⟩ := IntOp.andi_eq_one.1 h32
  exact word_lt_of_tests _ ha hb

/-! ### The whole list: the sources, then 0 … 99,999 -/

/-- Under the precondition every entry of the list "sources, then 0, 1, …, 99,999" has a value below 100,000. -/
private theorem list_lt (x0 : FVec Ideal S100000x64 .f32) (x1 : IVec S2x1600000 32) (x2 : FVec Ideal S64x64 .f32)
    (x3 : FVec Ideal S64 .f32) (x4 : FVec Ideal S64x64 .f32) (x5 : FVec Ideal S64 .f32)
    (hpre : Cert.Pre_finite_inputs.fn (F := Ideal) x0 x1 x2 x3 x4 x5 = fun _ => 1#1)
    (j : S1700000.Idx) :
    (Cert.ReferenceIdeal.ReadP.val_main_v5 (F := Ideal) x1 j).toNat < 100000 := by
  unfold Cert.ReferenceIdeal.ReadP.val_main_v5
  have hjlt : (j 0).val < 1700000 := (j 0).isLt
  by_cases hj : (j 0).val < 1600000
  · -- an entry among the first 1,600,000 is a source index
    rw [concatenate_pair_apply_left (t := S1700000) (s₁ := Cert.ReferenceIdeal.S1600000) (s₂ := Cert.ReferenceIdeal.S100000) (0 : Fin S1700000.rank) _ _ _ j rfl
      (fun a => match a with | ⟨0, _⟩ => ⟨(j 0).val, hj⟩) (fun b => match b with | ⟨0, _⟩ => rfl)]
    exact src_lt x0 x1 x2 x3 x4 x5 hpre _
  · -- a later entry is its own position less 1,600,000, a number below 100,000
    rw [concatenate_pair_apply_right (t := S1700000) (s₁ := Cert.ReferenceIdeal.S1600000) (s₂ := Cert.ReferenceIdeal.S100000) (0 : Fin S1700000.rank) _ _ _ j rfl rfl
      (fun a => match a with | ⟨0, _⟩ => ⟨(j 0).val - 1600000, by show (j 0).val - 1600000 < 100000; omega⟩)
      (fun b hb => match b, hb with | ⟨0, _⟩, hb => absurd rfl hb)
      (by show (j 0).val - 1600000 + 1600000 = (j 0).val; omega)]
    show (BitVec.ofNat 32 ((j 0).val - 1600000)).toNat < 100000
    rw [BitVec.toNat_ofNat]
    exact lt_of_le_of_lt (Nat.mod_le _ _) (by omega)

/-! ### The row read -/

/-- Under the precondition (every source index in 0 … 99,999) the kernel's row read of the list "sources, then
    0 … 99,999" is the reference's plain gather at the reference's own (raised) list. -/
theorem takeTerm_eq (x0 : FVec Ideal S100000x64 .f32) (x1 : IVec S2x1600000 32) (x2 : FVec Ideal S64x64 .f32)
    (x3 : FVec Ideal S64 .f32) (x4 : FVec Ideal S64x64 .f32) (x5 : FVec Ideal S64 .f32)
    (hpre : Cert.Pre_finite_inputs.fn (F := Ideal) x0 x1 x2 x3 x4 x5 = fun _ => 1#1)
    (h : FVec Ideal S100000x64 .f32) :
    takeTerm (F := Ideal) h (Cert.ReferenceIdeal.ReadP.val_main_v5 (F := Ideal) x1)
      = Host.gather Cert.ReferenceIdeal.gather_S100000x64_S1700000x1_S1700000x64_1_0_n_n_0_1_164 h
          (Cert.ReferenceIdeal.ReadP.val_main_v36 (F := Ideal) x1) := by
  have hs := list_lt x0 x1 x2 x3 x4 x5 hpre
  show select _ _ _ = _
  rw [select_ones _ _ _ (fun i => by
    show Host.reduce IntOp.andi _ _ _ _ _ = 1#1
    exact reduce_andi_ones _ _ _ _ (fun k => word_mask _ (hs _)) (fun _ => rfl) _)]
  rfl

end Cert.KernelIdeal.Take

end
-- ==== Proof.Stages.lean ====
/-
  What every buffer of the kernel's program holds at each boundary between its host stretches and its six calls, as a
  function of the argument arrays: the reference's own stages.

  The program computes the edge lists s and d (sources, targets, each followed by 0 … 99,999), the degrees, their
  inverse square roots and the per-edge weights once; then for each of the two layers a dense product, a read of its
  rows along s, a scaling of the rows by the weights, a sum of the scaled rows into the rows d names, and the bias
  (with the negative entries raised to zero after the first layer). The reference computes the same, building the lists
  and the weights anew for its second layer. Boundary by boundary the kernel's buffer is the reference's stage: the host
  stretches are the reference's own operations (read back from the list of operations), each call's result is the
  whole-array function its blocks tile, and four small laws join the two spellings: a product on the matrix unit is
  the dot product; a reshape of a vector to a column or to a row is the broadcast along the other axis; a row read whose
  range test always passes is the plain gather; and the lists built twice are the same lists.
-/
import proofs.«426287_j74354473828951_2_alg».proof.Proof.Gen.KernelIdeal.Frame
import proofs.«426287_j74354473828951_2_alg».proof.Proof.RefReadP
import proofs.«426287_j74354473828951_2_alg».proof.Proof.Matmul0
import proofs.«426287_j74354473828951_2_alg».proof.Proof.Scale1
import proofs.«426287_j74354473828951_2_alg».proof.Proof.BiasRelu2
import proofs.«426287_j74354473828951_2_alg».proof.Proof.Matmul3
import proofs.«426287_j74354473828951_2_alg».proof.Proof.Scale4
import proofs.«426287_j74354473828951_2_alg».proof.Proof.Bias5
import proofs.«426287_j74354473828951_2_alg».proof.Proof.Bridges
import proofs.«426287_j74354473828951_2_alg».proof.Proof.Carry
import proofs.«426287_j74354473828951_2_alg».proof.Proof.TakeMask
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen
open Cert.ReferenceIdeal.ReadP

/-! ## Transport along a buffer's type is the identity -/

section Casts

variable {Val : EltTy → Type}

/-- Contents carried to a buffer's type and back are the contents. -/
theorem ofBuf_toBuf {T : BufTy} (x : TRef sig T) (v : T.Contents Val) : x.ofBuf (x.toBuf v) = v := by
  simp [TRef.ofBuf, TRef.toBuf]

theorem of_v12 (x : (⟨S100000, .i1⟩ : BufTy).Contents Val) : (TRef.of (sig := sig) (T := ⟨S100000, .i1⟩) main_v12).ofBuf x = x := rfl
theorem of_v13 (x : (⟨S100000, .f32⟩ : BufTy).Contents Val) : (TRef.of (sig := sig) (T := ⟨S100000, .f32⟩) main_v13).ofBuf x = x := rfl
theorem of_cst2 (x : (⟨S_, .f32⟩ : BufTy).Contents Val) : (TRef.of (sig := sig) (T := ⟨S_, .f32⟩) main_cst_2).ofBuf x = x := rfl
theorem to_v14 (x : (⟨S100000, .f32⟩ : BufTy).Contents Val) : (TRef.of (sig := sig) (T := ⟨S100000, .f32⟩) main_v14).toBuf x = x := rfl
theorem of_v5 (x : (⟨S1700000, .i32⟩ : BufTy).Contents Val) : (TRef.of (sig := sig) (T := ⟨S1700000, .i32⟩) main_v5).ofBuf x = x := rfl
theorem of_v31 (x : (⟨S100000x64, .f32⟩ : BufTy).Contents Val) : (TRef.of (sig := sig) (T := ⟨S100000x64, .f32⟩) main_v31).ofBuf x = x := rfl
theorem to_v32 (x : (⟨S1700000x64, .f32⟩ : BufTy).Contents Val) : (TRef.of (sig := sig) (T := ⟨S1700000x64, .f32⟩) main_v32).toBuf x = x := rfl
theorem of_v39 (x : (⟨S100000x64, .f32⟩ : BufTy).Contents Val) : (TRef.of (sig := sig) (T := ⟨S100000x64, .f32⟩) main_v39).ofBuf x = x := rfl
theorem to_v40 (x : (⟨S1700000x64, .f32⟩ : BufTy).Contents Val) : (TRef.of (sig := sig) (T := ⟨S1700000x64, .f32⟩) main_v40).toBuf x = x := rfl

end Casts

variable (m : (ℓ : Loc nD τ sig) → Buf (Elt Ideal) ℓ) (ρ : Dev nD → PrngReg) (c : Dev nD)

/-! ## The lists and the weights (the three host stretches before the first call) -/

/-- After the first stretch: the source list (the sources, then 0 … 99,999). -/
theorem w1_v5 : W1 m ρ c (Proc.devRef .tc main_v5) = val_main_v5 (F := Ideal) (m ((c : Thread nD τ).loc main_arg1)) := by
  show StableHlo.after hostOps0 (W0 m ρ c) (Proc.devRef .tc main_v5) = _
  after_results
  rfl

/-- After the first stretch: the target list (the targets, then 0 … 99,999). -/
theorem w1_v6 : W1 m ρ c (Proc.devRef .tc main_v6) = val_main_v6 (F := Ideal) (m ((c : Thread nD τ).loc main_arg1)) := by
  show StableHlo.after hostOps0 (W0 m ρ c) (Proc.devRef .tc main_v6) = _
  after_results
  rfl

/-- After the first stretch: which nodes have an incoming edge. -/
theorem w1_v12 : W1 m ρ c (Proc.devRef .tc main_v12) = val_main_v12 (F := Ideal) (m ((c : Thread nD τ).loc main_arg1)) := by
  show StableHlo.after hostOps0 (W0 m ρ c) (Proc.devRef .tc main_v12) = _
  after_results
  rfl

/-- After the first stretch: the inverse square roots of the degrees. -/
theorem w1_v13 : W1 m ρ c (Proc.devRef .tc main_v13) = val_main_v13 (F := Ideal) (m ((c : Thread nD τ).loc main_arg1)) := by
  show StableHlo.after hostOps0 (W0 m ρ c) (Proc.devRef .tc main_v13) = _
  after_results
  rfl

/-- After the first stretch: the zero the degree-less nodes get. -/
theorem w1_cst2 : W1 m ρ c (Proc.devRef .tc main_cst_2) = val_main_cst_2 (F := Ideal) := by
  show StableHlo.after hostOps0 (W0 m ρ c) (Proc.devRef .tc main_cst_2) = _
  after_results
  rfl

/-- After the second stretch: the inverse square roots, zero where a node has no incoming edge. -/
theorem w2_v14 : W2 m ρ c (Proc.devRef .tc main_v14) = val_main_v14 (F := Ideal) (m ((c : Thread nD τ).loc main_arg1)) := by
  have h12 := w1_v12 m ρ c
  have h13 := w1_v13 m ρ c
  have hc := w1_cst2 m ρ c
  show StableHlo.after hostOps0_1 (W1 m ρ c) (Proc.devRef .tc main_v14) = _
  generalize W1 m ρ c = X at h12 h13 hc ⊢
  after_results_simp
  rw [h12, h13, hc]
  simp only [ofBuf_toBuf, of_v12, of_v13, of_cst2, to_v14]
  rfl

theorem w2_v5 : W2 m ρ c (Proc.devRef .tc main_v5) = val_main_v5 (F := Ideal) (m ((c : Thread nD τ).loc main_arg1)) := by
  have h := w1_v5 m ρ c
  show StableHlo.after hostOps0_1 (W1 m ρ c) (Proc.devRef .tc main_v5) = _
  generalize W1 m ρ c = X at h ⊢
  after_results_simp
  exact h

theorem w2_v6 : W2 m ρ c (Proc.devRef .tc main_v6) = val_main_v6 (F := Ideal) (m ((c : Thread nD τ).loc main_arg1)) := by
  have h := w1_v6 m ρ c
  show StableHlo.after hostOps0_1 (W1 m ρ c) (Proc.devRef .tc main_v6) = _
  generalize W1 m ρ c = X at h ⊢
  after_results_simp
  exact h

/-- The source list at the first call's entry. -/
theorem s3_v5 : W3 m ρ c (Proc.devRef .tc main_v5) = val_main_v5 (F := Ideal) (m ((c : Thread nD τ).loc main_arg1)) := by
  have h := w2_v5 m ρ c
  show StableHlo.after hostOps0_2 (W2 m ρ c) (Proc.devRef .tc main_v5) = _
  generalize W2 m ρ c = X at h ⊢
  after_results_simp
  exact h

/-- The target list at the first call's entry. -/
theorem s3_v6 : W3 m ρ c (Proc.devRef .tc main_v6) = val_main_v6 (F := Ideal) (m ((c : Thread nD τ).loc main_arg1)) := by
  have h := w2_v6 m ρ c
  show StableHlo.after hostOps0_2 (W2 m ρ c) (Proc.devRef .tc main_v6) = _
  generalize W2 m ρ c = X at h ⊢
  after_results_simp
  exact h

/-- The weights as a column: the reference's weight vector, reshaped. -/
theorem s3_v30 : W3 m ρ c (Proc.devRef .tc main_v30)
    = shapeCast S1700000x1 (val_main_v29 (F := Ideal) (m ((c : Thread nD τ).loc main_arg1))) shapeCasts_S1700000_S1700000x1 := by
  have h14 := w2_v14 m ρ c
  have h5 := w2_v5 m ρ c
  have h6 := w2_v6 m ρ c
  show StableHlo.after hostOps0_2 (W2 m ρ c) (Proc.devRef .tc main_v30) = _
  generalize W2 m ρ c = X at h14 h5 h6 ⊢
  after_results_simp
  rw [h14, h5, h6]
  rfl

/-! ## The first layer -/

/-- The first call: the dense product of the node table with the first matrix. -/
theorem s4_v31 : W4 m ρ c (Proc.devRef .tc main_v31) = val_main_v30 (F := Ideal) (m ((c : Thread nD τ).loc main_arg0)) (m ((c : Thread nD τ).loc main_arg2)) := by
  refine (W4_arr m ρ c 2).trans ?_
  rw [Matmul0.result]
  show Matmul0.product (W3 m ρ c (Proc.devRef .tc main_arg0)) (W3 m ρ c (Proc.devRef .tc main_arg2)) = _
  rw [Carry.W3_arg0, Carry.W3_arg2]
  exact Bridge.product_eq _ _

/-- The precondition on every device: all float arguments finite, every source index in 0 … 99,999. -/
abbrev PreAll (m : (ℓ : Loc nD τ sig) → Buf (Elt Ideal) ℓ) : Prop :=
  ∀ c : Dev nD, Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1

/-- The rows of the product along the source list. -/
theorem s5_v32 (hpre : PreAll m) : W5 m ρ c (Proc.devRef .tc main_v32) = val_main_v37 (F := Ideal) (m ((c : Thread nD τ).loc main_arg0)) (m ((c : Thread nD τ).loc main_arg1)) (m ((c : Thread nD τ).loc main_arg2)) := by
  show StableHlo.after hostOps1 (W4 m ρ c) (Proc.devRef .tc main_v32) = _
  after_results_simp
  rw [s4_v31, Carry.W4_v5, s3_v5]
  simp only [ofBuf_toBuf, of_v5, of_v31, to_v32]
  show Take.takeTerm (F := Ideal) (val_main_v30 (F := Ideal) (m ((c : Thread nD τ).loc main_arg0)) (m ((c : Thread nD τ).loc main_arg2))) (val_main_v5 (F := Ideal) (m ((c : Thread nD τ).loc main_arg1))) = _
  exact Take.takeTerm_eq _ _ _ _ _ _ (hpre c) _

/-- The second call: the rows scaled by the weights. -/
theorem s6_v33 (hpre : PreAll m) : W6 m ρ c (Proc.devRef .tc main_v33) = val_main_v40 (F := Ideal) (m ((c : Thread nD τ).loc main_arg0)) (m ((c : Thread nD τ).loc main_arg1)) (m ((c : Thread nD τ).loc main_arg2)) := by
  refine (W6_arr m ρ c 2).trans ?_
  rw [Scale1.result]
  show Scale1.scaled (W5 m ρ c (Proc.devRef .tc main_v32)) (W5 m ρ c (Proc.devRef .tc main_v30)) = _
  rw [s5_v32 m ρ c hpre, Carry.W5_v30, s3_v30]
  exact Bridge.scaled_eq _ _

/-- The scaled rows summed into the rows the target list names. -/
theorem s7_v36 (hpre : PreAll m) : W7 m ρ c (Proc.devRef .tc main_v36) = val_main_v43 (F := Ideal) (m ((c : Thread nD τ).loc main_arg0)) (m ((c : Thread nD τ).loc main_arg1)) (m ((c : Thread nD τ).loc main_arg2)) := by
  show StableHlo.after hostOps2 (W6 m ρ c) (Proc.devRef .tc main_v36) = _
  after_results_simp
  rw [s6_v33 m ρ c hpre, Carry.W6_v6, s3_v6]
  rfl

/-- The first bias as a row. -/
theorem s7_v37 : W7 m ρ c (Proc.devRef .tc main_v37) = shapeCast S1x64 (m ((c : Thread nD τ).loc main_arg3)) shapeCasts_S64_S1x64 := by
  show StableHlo.after hostOps2 (W6 m ρ c) (Proc.devRef .tc main_v37) = _
  after_results_simp
  rw [Carry.W6_arg3]
  rfl

/-- The third call: the bias added, negative entries raised to zero. -/
theorem s8_v38 (hpre : PreAll m) : W8 m ρ c (Proc.devRef .tc main_v38) = val_main_v47 (F := Ideal) (m ((c : Thread nD τ).loc main_arg0)) (m ((c : Thread nD τ).loc main_arg1)) (m ((c : Thread nD τ).loc main_arg2)) (m ((c : Thread nD τ).loc main_arg3)) := by
  refine (W8_arr m ρ c 2).trans ?_
  rw [BiasRelu2.result]
  show BiasRelu2.biasRelu (W7 m ρ c (Proc.devRef .tc main_v36)) (W7 m ρ c (Proc.devRef .tc main_v37)) = _
  rw [s7_v36 m ρ c hpre, s7_v37]
  exact BiasRelu2.biasRelu_eq _ _

/-! ## The second layer -/

/-- The fourth call: the dense product of the first layer's result with the second matrix. -/
theorem s9_v39 (hpre : PreAll m) : W9 m ρ c (Proc.devRef .tc main_v39) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W9_arr m ρ c 2).trans ?_
  rw [Matmul3.result]
  show Matmul0.product (W8 m ρ c (Proc.devRef .tc main_v38)) (W8 m ρ c (Proc.devRef .tc main_arg4)) = _
  rw [s8_v38 m ρ c hpre, Carry.W8_arg4]
  exact Bridge.product_eq _ _

/-- Its rows along the source list (the reference builds the list anew: the same list). -/
theorem s10_v40 (hpre : PreAll m) : W10 m ρ c (Proc.devRef .tc main_v40) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v40) = _
  after_results_simp
  rw [s9_v39 m ρ c hpre, Carry.W9_v5, s3_v5]
  simp only [ofBuf_toBuf, of_v5, of_v39, to_v40]
  show Take.takeTerm (F := Ideal) (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v5 (F := Ideal) (m ((c : Thread nD τ).loc main_arg1))) = _
  refine (Take.takeTerm_eq _ _ _ _ _ _ (hpre c) _).trans ?_
  unfold val_main_v81
  rw [Bridge.v80_eq]

/-- The fifth call: the rows scaled by the weights (built anew by the reference: the same weights). -/
theorem s11_v41 (hpre : PreAll m) : W11 m ρ c (Proc.devRef .tc main_v41) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ?_
  rw [Scale4.result]
  show Scale1.scaled (W10 m ρ c (Proc.devRef .tc main_v40)) (W10 m ρ c (Proc.devRef .tc main_v30)) = _
  rw [s10_v40 m ρ c hpre, Carry.W10_v30, s3_v30]
  refine (Bridge.scaled_eq _ _).trans ?_
  unfold val_main_v84
  rw [Bridge.v83_eq]
  rfl

/-- The scaled rows summed into the rows the target list names. -/
theorem s12_v44 (hpre : PreAll m) : W12 m ρ c (Proc.devRef .tc main_v44) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W11 m ρ c) (Proc.devRef .tc main_v44) = _
  after_results_simp
  rw [s11_v41 m ρ c hpre, Carry.W11_v6, s3_v6]
  unfold val_main_v87
  rw [Bridge.v86_eq]
  rfl

/-- The second bias as a row. -/
theorem s12_v45 : W12 m ρ c (Proc.devRef .tc main_v45) = shapeCast S1x64 (m ((c : Thread nD τ).loc main_arg5)) shapeCasts_S64_S1x64 := by
  show StableHlo.after hostOps5 (W11 m ρ c) (Proc.devRef .tc main_v45) = _
  after_results_simp
  rw [Carry.W11_arg5]
  rfl

/-- THE RESULT: when the last call ends the result buffer holds the reference's last stage of the argument arrays. -/
theorem result (hpre : PreAll m) : W13 m ρ c (Proc.devRef .tc main_v46) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ?_
  rw [Bias5.result]
  show Bias5.biased (W12 m ρ c (Proc.devRef .tc main_v44)) (W12 m ρ c (Proc.devRef .tc main_v45)) = _
  rw [s12_v44 m ρ c hpre, s12_v45]
  exact Bias5.biased_eq _ _

end Cert.KernelIdeal.Stages

end
-- ==== Proof.lean ====
/-
  A two-layer graph convolution over 100,000 nodes with 64 features and 1,600,000 edges, computed by six block-tiled
  calls among host operations, against its plain array reference.

  Both programs add a loop at every node, count each node's incoming edges, take the inverse square root of the
  counts (zero where the count is zero) and give edge (s, d) the weight dinv s · dinv d. A layer multiplies the node
  table by a 64 × 64 matrix, reads the product's rows along the source list, scales each row by its edge's weight,
  sums the scaled rows into the rows the target list names and adds the bias row; the first layer then raises negative
  entries to zero. The kernel's program does the product, the scaling and the bias in calls that walk the rows block by
  block, and narrows the product's operands to bfloat16 first, which at the extended reals changes nothing; the blocks
  tile the rows, so each call's result is one whole-array function of its inputs. The kernel's row read fills a row
  whose index is out of range, where the reference's clamps the index: under the precondition every source index lies
  in 0 … 99,999, no index is out of range, and both are the plain gather. The reference builds the lists and the
  weights once per layer, the kernel once: the same lists and weights. So from memories that agree on the six argument
  arrays both programs end with the same table, entry by entry.

  The three frames are the generated ones (the reference's is its run with the result dropped); nothing was rewritten
  by the idealization, so the kernel's idealization is the kernel's own program.
-/
import proofs.«426287_j74354473828951_2_alg».proof.Defs
import proofs.«426287_j74354473828951_2_alg».proof.Proof.Gen.Kernel
import proofs.«426287_j74354473828951_2_alg».proof.Proof.Gen.Kernel.Skeleton
import proofs.«426287_j74354473828951_2_alg».proof.Proof.Gen.Kernel.Launch
import proofs.«426287_j74354473828951_2_alg».proof.Proof.Gen.Kernel.Points
import proofs.«426287_j74354473828951_2_alg».proof.Proof.Gen.Kernel.Frame
import proofs.«426287_j74354473828951_2_alg».proof.Proof.Gen.KernelIdeal
import proofs.«426287_j74354473828951_2_alg».proof.Proof.Gen.KernelIdeal.Skeleton
import proofs.«426287_j74354473828951_2_alg».proof.Proof.Gen.KernelIdeal.Launch
import proofs.«426287_j74354473828951_2_alg».proof.Proof.Gen.KernelIdeal.Points
import proofs.«426287_j74354473828951_2_alg».proof.Proof.Gen.KernelIdeal.Frame
import proofs.«426287_j74354473828951_2_alg».proof.Proof.Gen.ReferenceIdeal
import proofs.«426287_j74354473828951_2_alg».proof.Proof.Gen.Pre_finite_inputs
import proofs.«426287_j74354473828951_2_alg».proof.Proof.RefRunP
import proofs.«426287_j74354473828951_2_alg».proof.Proof.RefReadP
import proofs.«426287_j74354473828951_2_alg».proof.Proof.KernelRun
import proofs.«426287_j74354473828951_2_alg».proof.Proof.Stages
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten when the kernel was read over the extended reals. -/
theorem preserves : Cert.preserves_Kernel_KernelIdeal := trivial

/-- From memories that agree on the arguments, under the precondition, both programs end with the reference's last
    stage of the argument arrays in their result buffers. -/
theorem algebraic : Cert.algebraic_KernelIdeal_ReferenceIdeal := by
  intro m ρ m' ρ' hpre hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.result m ρ c hpre), (h c).2⟩)
      (Cert.KernelIdeal.RunNamed.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
